-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x16x64 : Shape := ⟨4, ![4, 4096, 16, 64]⟩
abbrev S4x25x16x64 : Shape := ⟨4, ![4, 25, 16, 64]⟩
abbrev S4x4096 : Shape := ⟨2, ![4, 4096]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel
  bcast_S_S4x25x16x64 : S_.BroadcastsInDim S4x25x16x64 (![] : Fin 0 → Fin S4x25x16x64.rank)
  reducesTo_S4x25x16x64_S_d0_1_2_3 : S4x25x16x64.ReducesTo [0, 1, 2, 3] S_

variable [Facts]

def fn_part1 {F : FTy → Type} [FloatOps F] (main_v13 : IVec S_ 1) (main_v16 : IVec S4x25x16x64 1) : IVec S_ 1 :=
  let main_c_5 : IVec S_ 1 := constantI S_ 1 1#1
  let main_v17 : IVec S_ 1 := (fun x v => Host.reduce IntOp.andi x v reducesTo_S4x25x16x64_S_d0_1_2_3 h_S_) main_v16 main_c_5
  let main_v18 : IVec S_ 1 := andi main_v13 main_v17
  main_v18

def fn {F : FTy → Type} [FloatOps F] (main_arg0 : FVec F S4x4096x16x64 .f32) (main_arg1 : FVec F S4x4096x16x64 .f32) (main_arg2 : FVec F S4x4096x16x64 .f32) (main_arg3 : FVec F S4x25x16x64 .f32) (main_arg4 : IVec S4x4096 1) : IVec S_ 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x16x64 .f32 := Host.absf main_arg1
  let main_cst_0 : FVec F S_ .f32 := constant S_ .f32 0x7F800000#32
  let main_v5 : FVec F S4x4096x16x64 .f32 := broadcastInDim S4x4096x16x64 ![] bcast_S_S4x4096x16x64 main_cst_0
  let main_v6 : IVec S4x4096x16x64 1 := cmpf .olt main_v4 main_v5
  let main_c_1 : IVec S_ 1 := constantI S_ 1 1#1
  let main_v7 : IVec S_ 1 := (fun x v => Host.reduce IntOp.andi x v reducesTo_S4x4096x16x64_S_d0_1_2_3 h_S_) main_v6 main_c_1
  let main_v8 : IVec S_ 1 := andi main_v3 main_v7
  let main_v9 : FVec F S4x4096x16x64 .f32 := Host.absf main_arg2
  let main_cst_2 : FVec F S_ .f32 := constant S_ .f32 0x7F800000#32
  let main_v10 : FVec F S4x4096x16x64 .f32 := broadcastInDim S4x4096x16x64 ![] bcast_S_S4x4096x16x64 main_cst_2
  let main_v11 : IVec S4x4096x16x64 1 := cmpf .olt main_v9 main_v10
  let main_c_3 : IVec S_ 1 := constantI S_ 1 1#1
  let main_v12 : IVec S_ 1 := (fun x v => Host.reduce IntOp.andi x v reducesTo_S4x4096x16x64_S_d0_1_2_3 h_S_) main_v11 main_c_3
  let main_v13 : IVec S_ 1 := andi main_v8 main_v12
  let main_v14 : FVec F S4x25x16x64 .f32 := Host.absf main_arg3
  let main_cst_4 : FVec F S_ .f32 := constant S_ .f32 0x7F800000#32
  let main_v15 : FVec F S4x25x16x64 .f32 := broadcastInDim S4x25x16x64 ![] bcast_S_S4x25x16x64 main_cst_4
  let main_v16 : IVec S4x25x16x64 1 := cmpf .olt main_v14 main_v15
  fn_part1 (F := F) main_v13 main_v16
-- ==== Kernel.lean ====
abbrev S4x4096x16x64 : Shape := ⟨4, ![4, 4096, 16, 64]⟩
abbrev S4x25x16x64 : Shape := ⟨4, ![4, 25, 16, 64]⟩
abbrev S4x4096 : Shape := ⟨2, ![4, 4096]⟩
abbrev S4x4096x1024 : Shape := ⟨3, ![4, 4096, 1024]⟩
abbrev S4x25x1024 : Shape := ⟨3, ![4, 25, 1024]⟩
abbrev S1x4096x256 : Shape := ⟨3, ![1, 4096, 256]⟩
abbrev S1x25x256 : Shape := ⟨3, ![1, 25, 256]⟩
abbrev S1x4096x64 : Shape := ⟨3, ![1, 4096, 64]⟩
abbrev S4096x64 : Shape := ⟨2, ![4096, 64]⟩
abbrev S1x25x64 : Shape := ⟨3, ![1, 25, 64]⟩
abbrev S25x64 : Shape := ⟨2, ![25, 64]⟩
abbrev S25x4096 : Shape := ⟨2, ![25, 4096]⟩
abbrev S25 : Shape := ⟨1, ![25]⟩
abbrev S25x1 : Shape := ⟨2, ![25, 1]⟩
abbrev S1x1024x64 : Shape := ⟨3, ![1, 1024, 64]⟩
abbrev S1024x64 : Shape := ⟨2, ![1024, 64]⟩
abbrev S1024x25 : Shape := ⟨2, ![1024, 25]⟩
abbrev S1024 : Shape := ⟨1, ![1024]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S4x25x16x64, .f32⟩
  | .hbm, ⟨4, _⟩ => ⟨S4x4096, .i1⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x25x1024, .f32⟩
  | .hbm, ⟨9, _⟩ => ⟨S4x4096x1024, .f32⟩
  | .hbm, ⟨10, _⟩ => ⟨S4x4096x16x64, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x25x256, .f32⟩
  | .local _ .vmem, ⟨7, _⟩ => ⟨S1x25x256, .f32⟩
  | .local _ .vmem, ⟨8, _⟩ => ⟨S1x4096x256, .f32⟩
  | .local _ .vmem, ⟨9, _⟩ => ⟨S1x4096x256, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c1024_i32 : BitVec 32 := 1024#32
  let v100 : BitVec 32 := Scalar.muli c0_i32 c1024_i32
  v100
def k0_off1 (c0_i32 : BitVec 32) : Fin 3 → Nat :=
  let c0_51 : Index := 0#32
  let c1024_i32 : BitVec 32 := 1024#32
  let v100 : BitVec 32 := Scalar.muli c0_i32 c1024_i32
  let v101 : BitVec 32 := v100
  let v102 : Index := Scalar.indexCast v101
  let c0_52 : Index := 0#32
  ![0, v102.toNat, 0]
def k0_off2 (c0_i32 : BitVec 32) : Fin 3 → Nat :=
  let c0_58 : Index := 0#32
  let c1024_i32 : BitVec 32 := 1024#32
  let v100 : BitVec 32 := Scalar.muli c0_i32 c1024_i32
  let v101 : BitVec 32 := v100
  let v120 : Index := Scalar.indexCast v101
  let c64_59 : Index := 64#32
  ![0, v120.toNat, 64]
def k0_off3 (c0_i32 : BitVec 32) : Fin 3 → Nat :=
  let c0_65 : Index := 0#32
  let c1024_i32 : BitVec 32 := 1024#32
  let v100 : BitVec 32 := Scalar.muli c0_i32 c1024_i32
  let v101 : BitVec 32 := v100
  let v138 : Index := Scalar.indexCast v101
  let c128_66 : Index := 128#32
  ![0, v138.toNat, 128]
def k0_off4 (c0_i32 : BitVec 32) : Fin 3 → Nat :=
  let c0_72 : Index := 0#32
  let c1024_i32 : BitVec 32 := 1024#32
  let v100 : BitVec 32 := Scalar.muli c0_i32 c1024_i32
  let v101 : BitVec 32 := v100
  let v156 : Index := Scalar.indexCast v101
  let c192_73 : Index := 192#32
  ![0, v156.toNat, 192]
def k0_off5 (c0_i32 : BitVec 32) : Fin 3 → Nat :=
  let c0_79 : Index := 0#32
  let c1024_i32 : BitVec 32 := 1024#32
  let v100 : BitVec 32 := Scalar.muli c0_i32 c1024_i32
  let v101 : BitVec 32 := v100
  let v175 : Index := Scalar.indexCast v101
  let c0_80 : Index := 0#32
  ![0, v175.toNat, 0]
def k0_mult2 : BitVec 32 :=
  let c1_i32 : BitVec 32 := 1#32
  let c1024_i32_81 : BitVec 32 := 1024#32
  let v179 : BitVec 32 := Scalar.muli c1_i32 c1024_i32_81
  v179
def k0_mult3 : BitVec 32 :=
  let c2_i32 : BitVec 32 := 2#32
  let c1024_i32_112 : BitVec 32 := 1024#32
  let v258 : BitVec 32 := Scalar.muli c2_i32 c1024_i32_112
  v258
def k0_mult4 : BitVec 32 :=
  let c3_i32 : BitVec 32 := 3#32
  let c1024_i32_143 : BitVec 32 := 1024#32
  let v337 : BitVec 32 := Scalar.muli c3_i32 c1024_i32_143
  v337
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x25x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x4096x16x64_S4x4096x1024 : S4x4096x16x64.ShapeCasts S4x4096x1024
  shapeCasts_S4x25x16x64_S4x25x1024 : S4x25x16x64.ShapeCasts S4x25x1024
  inb_S1x4096x256_S1x4096x64_0_0_0 : ∀ a, (![0, 0, 0] : Fin 3 → Nat) a + S1x4096x64.size a ≤ S1x4096x256.size a
  h_S1x4096x64 : 0 < S1x4096x64.numel
  shapeCasts_S1x4096x64_S4096x64 : S1x4096x64.ShapeCasts S4096x64
  inb_S1x25x256_S1x25x64_0_0_0 : ∀ a, (![0, 0, 0] : Fin 3 → Nat) a + S1x25x64.size a ≤ S1x25x256.size a
  h_S1x25x64 : 0 < S1x25x64.numel
  shapeCasts_S1x25x64_S25x64 : S1x25x64.ShapeCasts S25x64
  bitsLt_bf16_f32 : FTy.bits .bf16 < FTy.bits .f32
  reduces_S25x4096_S25 : S25x4096.Reduces [1] S25
  shapeCasts_S25_S25x1 : S25.ShapeCasts S25x1
  broadcasts_S25x1_S25x4096 : S25x1.Broadcasts S25x4096
  inb_S1x4096x256_S1x4096x64_0_0_64 : ∀ a, (![0, 0, 64] : Fin 3 → Nat) a + S1x4096x64.size a ≤ S1x4096x256.size a
  inb_S1x25x256_S1x25x64_0_0_64 : ∀ a, (![0, 0, 64] : Fin 3 → Nat) a + S1x25x64.size a ≤ S1x25x256.size a
  inb_S1x4096x256_S1x4096x64_0_0_128 : ∀ a, (![0, 0, 128] : Fin 3 → Nat) a + S1x4096x64.size a ≤ S1x4096x256.size a
  inb_S1x25x256_S1x25x64_0_0_128 : ∀ a, (![0, 0, 128] : Fin 3 → Nat) a + S1x25x64.size a ≤ S1x25x256.size a
  inb_S1x4096x256_S1x4096x64_0_0_192 : ∀ a, (![0, 0, 192] : Fin 3 → Nat) a + S1x4096x64.size a ≤ S1x4096x256.size a
  inb_S1x25x256_S1x25x64_0_0_192 : ∀ a, (![0, 0, 192] : Fin 3 → Nat) a + S1x25x64.size a ≤ S1x25x256.size a
  h_S1x1024x64 : 0 < S1x1024x64.numel
  shapeCasts_S1x1024x64_S1024x64 : S1x1024x64.ShapeCasts S1024x64
  reduces_S1024x25_S1024 : S1024x25.Reduces [1] S1024
  shapeCasts_S1024_S1024x1 : S1024.ShapeCasts S1024x1
  broadcasts_S1024x1_S1024x25 : S1024x1.Broadcasts S1024x25
  concatenates_S1024x64_S1024x64_S1024x64_S1024x64_S1024x256_d1 : Shape.Concatenates [S1024x64, S1024x64, S1024x64, S1024x64] S1024x256 1
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S4x4096x1024_S4x4096x16x64 : S4x4096x1024.ShapeCasts S4x4096x16x64
  dot_S25x64_S4096x64_S25x4096_1_1_0_0_n_n_wf : DotDims.WF S25x64 S4096x64 S25x4096 [1] [1] [0] [0] [] []
  dot_S25x4096_S4096x64_S25x64_1_0_0_1_n_n_wf : DotDims.WF S25x4096 S4096x64 S25x64 [1] [0] [0] [1] [] []
  dot_S1024x64_S25x64_S1024x25_1_1_0_0_n_n_wf : DotDims.WF S1024x64 S25x64 S1024x25 [1] [1] [0] [0] [] []
  dot_S1024x25_S25x64_S1024x64_1_0_0_1_n_n_wf : DotDims.WF S1024x25 S25x64 S1024x64 [1] [0] [0] [1] [] []
  hrank0 : 0 < grid0.rank
  k0_mult1_dvd : 1024 ∣ k0_mult1.toNat
  k0_off1_inb : ∀ (r : Fin 4), ∀ a, (k0_off1 (BitVec.ofNat 32 r.val)) a + S1x1024x64.size a ≤ S1x4096x256.size a
  k0_off2_inb : ∀ (r : Fin 4), ∀ a, (k0_off2 (BitVec.ofNat 32 r.val)) a + S1x1024x64.size a ≤ S1x4096x256.size a
  k0_off3_inb : ∀ (r : Fin 4), ∀ a, (k0_off3 (BitVec.ofNat 32 r.val)) a + S1x1024x64.size a ≤ S1x4096x256.size a
  k0_off4_inb : ∀ (r : Fin 4), ∀ a, (k0_off4 (BitVec.ofNat 32 r.val)) a + S1x1024x64.size a ≤ S1x4096x256.size a
  k0_off5_inb : ∀ (r : Fin 4), ∀ a, (k0_off5 (BitVec.ofNat 32 r.val)) a + S1x1024x256.size a ≤ S1x4096x256.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x1024.size a
  hwx0_0 : ∀ i : grid0.Coords, EltTy.bits .f32 = 32 ∨ (Rect.block (s := S4x4096x1024) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x1024.size a
  hwx0_1 : ∀ i : grid0.Coords, EltTy.bits .f32 = 32 ∨ (Rect.block (s := S4x4096x1024) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S4x4096x1024.size a
  hwx0_2 : ∀ i : grid0.Coords, EltTy.bits .f32 = 32 ∨ (Rect.block (s := S4x4096x1024) S1x4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x25x256.size a ≤ S4x25x1024.size a
  hwx0_3 : ∀ i : grid0.Coords, EltTy.bits .f32 = 32 ∨ (Rect.block (s := S4x25x1024) S1x25x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x256.size a ≤ S4x4096x1024.size a
  hwx0_4 : ∀ i : grid0.Coords, EltTy.bits .f32 = 32 ∨ (Rect.block (s := S4x4096x1024) S1x4096x256.size (cc0_transform_4 i) (hinb0_4 i)).WholeWords (EltTy.packing .f32)

variable [Facts₀]

def dot_S25x64_S4096x64_S25x4096_1_1_0_0_n_n : DotDims S25x64 S4096x64 S25x4096 where
  lhsContracting := [1]
  rhsContracting := [1]
  lhsNonContracting := [0]
  rhsNonContracting := [0]
  lhsBatch := []
  rhsBatch := []
  wf := dot_S25x64_S4096x64_S25x4096_1_1_0_0_n_n_wf
def dot_S25x4096_S4096x64_S25x64_1_0_0_1_n_n : DotDims S25x4096 S4096x64 S25x64 where
  lhsContracting := [1]
  rhsContracting := [0]
  lhsNonContracting := [0]
  rhsNonContracting := [1]
  lhsBatch := []
  rhsBatch := []
  wf := dot_S25x4096_S4096x64_S25x64_1_0_0_1_n_n_wf
def dot_S1024x64_S25x64_S1024x25_1_1_0_0_n_n : DotDims S1024x64 S25x64 S1024x25 where
  lhsContracting := [1]
  rhsContracting := [1]
  lhsNonContracting := [0]
  rhsNonContracting := [0]
  lhsBatch := []
  rhsBatch := []
  wf := dot_S1024x64_S25x64_S1024x25_1_1_0_0_n_n_wf
def dot_S1024x25_S25x64_S1024x64_1_0_0_1_n_n : DotDims S1024x25 S25x64 S1024x64 where
  lhsContracting := [1]
  rhsContracting := [0]
  lhsNonContracting := [0]
  rhsNonContracting := [1]
  lhsBatch := []
  rhsBatch := []
  wf := dot_S1024x25_S25x64_S1024x64_1_0_0_1_n_n_wf

abbrev win0_0 : Pipeline.Window sig grid0 :=
  Pipeline.Window.ofSpec (Memref.whole main_v0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x25x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x16x64 : Shape := ⟨4, ![4, 4096, 16, 64]⟩
abbrev S4x25x16x64 : Shape := ⟨4, ![4, 25, 16, 64]⟩
abbrev S4x4096 : Shape := ⟨2, ![4, 4096]⟩
abbrev S4x16x4096x64 : Shape := ⟨4, ![4, 16, 4096, 64]⟩
abbrev S4x16x25x64 : Shape := ⟨4, ![4, 16, 25, 64]⟩
abbrev S_ : Shape := ⟨0, ![]⟩
abbrev S4x16x25x4096 : Shape := ⟨4, ![4, 16, 25, 4096]⟩
abbrev S4x16x25 : Shape := ⟨3, ![4, 16, 25]⟩
abbrev S4x16x25x1 : Shape := ⟨4, ![4, 16, 25, 1]⟩
abbrev S4x16x4096x25 : Shape := ⟨4, ![4, 16, 4096, 25]⟩
abbrev S4x16x4096 : Shape := ⟨3, ![4, 16, 4096]⟩
abbrev S4x16x4096x1 : Shape := ⟨4, ![4, 16, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S4x25x16x64, .f32⟩
  | .hbm, ⟨4, _⟩ => ⟨S4x4096, .i1⟩
  | .hbm, ⟨5, _⟩ => ⟨S4x16x4096x64, .f32⟩
  | .hbm, ⟨6, _⟩ => ⟨S4x16x4096x64, .f32⟩
  | .hbm, ⟨7, _⟩ => ⟨S4x16x4096x64, .f32⟩
  | .hbm, ⟨8, _⟩ => ⟨S4x16x25x64, .f32⟩
  | .hbm, ⟨9, _⟩ => ⟨S_, .f32⟩
  | .hbm, ⟨10, _⟩ => ⟨S4x16x25x64, .f32⟩
  | .hbm, ⟨11, _⟩ => ⟨S4x16x25x64, .f32⟩
  | .hbm, ⟨12, _⟩ => ⟨S4x16x25x4096, .f32⟩
  | .hbm, ⟨13, _⟩ => ⟨S_, .f32⟩
  | .hbm, ⟨14, _⟩ => ⟨S4x16x25, .f32⟩
  | .hbm, ⟨15, _⟩ => ⟨S_, .f32⟩
  | .hbm, ⟨16, _⟩ => ⟨S4x16x25, .f32⟩
  | .hbm, ⟨17, _⟩ => ⟨S4x16x25, .f32⟩
  | .hbm, ⟨18, _⟩ => ⟨S4x16x25x1, .f32⟩
  | .hbm, ⟨19, _⟩ => ⟨S4x16x25x4096, .f32⟩
  | .hbm, ⟨20, _⟩ => ⟨S4x16x25x4096, .f32⟩
  | .hbm, ⟨21, _⟩ => ⟨S4x16x25x4096, .f32⟩
  | .hbm, ⟨22, _⟩ => ⟨S_, .f32⟩
  | .hbm, ⟨23, _⟩ => ⟨S4x16x25, .f32⟩
  | .hbm, ⟨24, _⟩ => ⟨S4x16x25x1, .f32⟩
  | .hbm, ⟨25, _⟩ => ⟨S4x16x25x4096, .f32⟩
  | .hbm, ⟨26, _⟩ => ⟨S4x16x25x4096, .f32⟩
  | .hbm, ⟨27, _⟩ => ⟨S4x16x25x64, .f32⟩
  | .hbm, ⟨28, _⟩ => ⟨S_, .f32⟩
  | .hbm, ⟨29, _⟩ => ⟨S4x16x4096x64, .f32⟩
  | .hbm, ⟨30, _⟩ => ⟨S4x16x4096x64, .f32⟩
  | .hbm, ⟨31, _⟩ => ⟨S4x16x4096x25, .f32⟩
  | .hbm, ⟨32, _⟩ => ⟨S_, .f32⟩
  | .hbm, ⟨33, _⟩ => ⟨S4x16x4096, .f32⟩
  | .hbm, ⟨34, _⟩ => ⟨S_, .f32⟩
  | .hbm, ⟨35, _⟩ => ⟨S4x16x4096, .f32⟩
  | .hbm, ⟨36, _⟩ => ⟨S4x16x4096, .f32⟩
  | .hbm, ⟨37, _⟩ => ⟨S4x16x4096x1, .f32⟩
  | .hbm, ⟨38, _⟩ => ⟨S4x16x4096x25, .f32⟩
  | .hbm, ⟨39, _⟩ => ⟨S4x16x4096x25, .f32⟩
  | .hbm, ⟨40, _⟩ => ⟨S4x16x4096x25, .f32⟩
  | .hbm, ⟨41, _⟩ => ⟨S_, .f32⟩
  | .hbm, ⟨42, _⟩ => ⟨S4x16x4096, .f32⟩
  | .hbm, ⟨43, _⟩ => ⟨S4x16x4096x1, .f32⟩
  | .hbm, ⟨44, _⟩ => ⟨S4x16x4096x25, .f32⟩
  | .hbm, ⟨45, _⟩ => ⟨S4x16x4096x25, .f32⟩
  | .hbm, ⟨46, _⟩ => ⟨S4x16x4096x64, .f32⟩
  | .hbm, ⟨47, _⟩ => ⟨S4x4096x16x64, .f32⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  transposes_S4x4096x16x64_S4x16x4096x64_0_2_1_3 : S4x4096x16x64.Transposes [0, 2, 1, 3] S4x16x4096x64
  transposes_S4x25x16x64_S4x16x25x64_0_2_1_3 : S4x25x16x64.Transposes [0, 2, 1, 3] S4x16x25x64
  bcast_S_S4x16x25x64 : S_.BroadcastsInDim S4x16x25x64 (![] : Fin 0 → Fin S4x16x25x64.rank)
  reducesTo_S4x16x25x4096_S4x16x25_d3 : S4x16x25x4096.ReducesTo [3] S4x16x25
  h_S_ : 0 < S_.numel
  bcast_S_S4x16x25 : S_.BroadcastsInDim S4x16x25 (![] : Fin 0 → Fin S4x16x25.rank)
  bcast_S4x16x25_S4x16x25x1_0_1_2 : S4x16x25.BroadcastsInDim S4x16x25x1 (![0, 1, 2] : Fin 3 → Fin S4x16x25x1.rank)
  bcast_S4x16x25x1_S4x16x25x4096_0_1_2_3 : S4x16x25x1.BroadcastsInDim S4x16x25x4096 (![0, 1, 2, 3] : Fin 4 → Fin S4x16x25x4096.rank)
  bcast_S_S4x16x4096x64 : S_.BroadcastsInDim S4x16x4096x64 (![] : Fin 0 → Fin S4x16x4096x64.rank)
  reducesTo_S4x16x4096x25_S4x16x4096_d3 : S4x16x4096x25.ReducesTo [3] S4x16x4096
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x25_0_1_2_3 : S4x16x4096x1.BroadcastsInDim S4x16x4096x25 (![0, 1, 2, 3] : Fin 4 → Fin S4x16x4096x25.rank)
  transposes_S4x16x4096x64_S4x4096x16x64_0_2_1_3 : S4x16x4096x64.Transposes [0, 2, 1, 3] S4x4096x16x64
  dot_S4x16x25x64_S4x16x4096x64_S4x16x25x4096_3_3_2_2_01_01_wf : DotDims.WF S4x16x25x64 S4x16x4096x64 S4x16x25x4096 [3] [3] [2] [2] [0, 1] [0, 1]
  dot_S4x16x25x4096_S4x16x4096x64_S4x16x25x64_3_2_2_3_01_01_wf : DotDims.WF S4x16x25x4096 S4x16x4096x64 S4x16x25x64 [3] [2] [2] [3] [0, 1] [0, 1]
  dot_S4x16x4096x64_S4x16x25x64_S4x16x4096x25_3_3_2_2_01_01_wf : DotDims.WF S4x16x4096x64 S4x16x25x64 S4x16x4096x25 [3] [3] [2] [2] [0, 1] [0, 1]
  dot_S4x16x4096x25_S4x16x25x64_S4x16x4096x64_3_2_2_3_01_01_wf : DotDims.WF S4x16x4096x25 S4x16x25x64 S4x16x4096x64 [3] [2] [2] [3] [0, 1] [0, 1]

variable [Facts₀]

def dot_S4x16x25x64_S4x16x4096x64_S4x16x25x4096_3_3_2_2_01_01 : DotDims S4x16x25x64 S4x16x4096x64 S4x16x25x4096 where
  lhsContracting := [3]
  rhsContracting := [3]
  lhsNonContracting := [2]
  rhsNonContracting := [2]
  lhsBatch := [0, 1]
  rhsBatch := [0, 1]
  wf := dot_S4x16x25x64_S4x16x4096x64_S4x16x25x4096_3_3_2_2_01_01_wf
def dot_S4x16x25x4096_S4x16x4096x64_S4x16x25x64_3_2_2_3_01_01 : DotDims S4x16x25x4096 S4x16x4096x64 S4x16x25x64 where
  lhsContracting := [3]
  rhsContracting := [2]
  lhsNonContracting := [2]
  rhsNonContracting := [3]
  lhsBatch := [0, 1]
  rhsBatch := [0, 1]
  wf := dot_S4x16x25x4096_S4x16x4096x64_S4x16x25x64_3_2_2_3_01_01_wf
def dot_S4x16x4096x64_S4x16x25x64_S4x16x4096x25_3_3_2_2_01_01 : DotDims S4x16x4096x64 S4x16x25x64 S4x16x4096x25 where
  lhsContracting := [3]
  rhsContracting := [3]
  lhsNonContracting := [2]
  rhsNonContracting := [2]
  lhsBatch := [0, 1]
  rhsBatch := [0, 1]
  wf := dot_S4x16x4096x64_S4x16x25x64_S4x16x4096x25_3_3_2_2_01_01_wf
def dot_S4x16x4096x25_S4x16x25x64_S4x16x4096x64_3_2_2_3_01_01 : DotDims S4x16x4096x25 S4x16x25x64 S4x16x4096x64 where
  lhsContracting := [3]
  rhsContracting := [2]
  lhsNonContracting := [2]
  rhsNonContracting := [3]
  lhsBatch := [0, 1]
  rhsBatch := [0, 1]
  wf := dot_S4x16x4096x25_S4x16x25x64_S4x16x4096x64_3_2_2_3_01_01_wf

class Facts : Prop extends Facts₀ where

variable [Facts]
-- ==== Proof.GuidedAttention.lean ====
/-
  Attention through guidance tokens, as ONE function of the four argument arrays, index by index on the extended reals.

  For one batch entry and one head, with keys `kk`, values `vv` (4096 rows of 64), guidance tokens `gt` (25 rows of 64)
  and one query row `qrow` (64 entries), all scaled scores by the factor 1/4:
    * a guidance token `g` scores every key row `l` by `∑ e, (gt g e · ¼) · kk l e`; the softmax of that row of 4096 scores
      weights the value rows, and the weighted sum is the token's SUMMARY row `summary kk vv gt g` (64 entries);
    * the query row scores every guidance token `g` by `∑ e, (qrow e · ¼) · gt g e`; the softmax of those 25 scores weights
      the summary rows, and the weighted sum is the query's result row `attend qrow gt gv`.
  A softmax weight is `exp (x j − M) / ∑ k, exp (x k − M)` with `M` the row's maximum, the maximum folded from the word of
  −∞ — the order of the fold and of the sums is immaterial (`max` and `+` are commutative and associative on the extended
  reals), so one spelling serves a row reduced in lanes and a row reduced on the host.
  The whole result at `(b, l, h, e)` is the query row `(b, l, h, ·)` attended over the guidance rows `(b, ·, h, ·)` and the
  summaries of the key and value rows `(b, ·, h, ·)`, at entry `e`. The Boolean mask argument is not read.
-/
import Idealize.ShloMosaic.PureOps.Ideal
import Idealize.ShloMosaic.Lib.ValueIdx
import Mathlib.Data.Finset.Fold

noncomputable section

open scoped BigOperators

namespace Cert.GuidedAttention

open Idealize.ShloMosaic Idealize.ShloMosaic.ValueIdx

/-- The score scale, the word of the dyadic 1/4. -/
abbrev quarter : EReal := Ideal.ofBits .f32 0x3E800000#32
/-- The word of −∞, from which a row's maximum is folded. -/
abbrev negInf : EReal := Ideal.ofBits .f32 0xFF800000#32

/-- A row's maximum. -/
def rowMax {n : Nat} (x : Fin n → EReal) : EReal := (Finset.univ : Finset (Fin n)).fold max negInf x

/-- The fold starts at its initial value, so a further `max` with that value changes nothing. -/
theorem max_negInf_rowMax {n : Nat} (x : Fin n → EReal) : max negInf (rowMax x) = rowMax x :=
  max_eq_right ((Finset.le_fold_max _).mpr (Or.inl le_rfl))

/-- The numerator of a softmax weight: the exponential of the entry less the row's maximum. -/
def expShift {n : Nat} (x : Fin n → EReal) (j : Fin n) : EReal := Ideal.exp (x j - rowMax x)

/-- The softmax weight of entry `j` of the row `x`. -/
def softmax {n : Nat} (x : Fin n → EReal) (j : Fin n) : EReal := Ideal.div (expShift x j) (∑ k : Fin n, expShift x k)

/-- How a guidance token `g` scores key row `l`. -/
def keyScore (kk : Fin 4096 → Fin 64 → EReal) (gt : Fin 25 → Fin 64 → EReal) (g : Fin 25) (l : Fin 4096) : EReal :=
  ∑ e : Fin 64, (gt g e * quarter) * kk l e

/-- Stage one: the value rows weighted by the softmax of a guidance token's scores of the key rows. -/
def summary (kk vv : Fin 4096 → Fin 64 → EReal) (gt : Fin 25 → Fin 64 → EReal) (g : Fin 25) (e : Fin 64) : EReal :=
  ∑ l : Fin 4096, softmax (keyScore kk gt g) l * vv l e

/-- How a query row scores guidance token `g`. -/
def tokenScore (qrow : Fin 64 → EReal) (gt : Fin 25 → Fin 64 → EReal) (g : Fin 25) : EReal :=
  ∑ e : Fin 64, (qrow e * quarter) * gt g e

/-- Stage two: the summary rows `gv` weighted by the softmax of a query row's scores of the guidance tokens. -/
def attend (qrow : Fin 64 → EReal) (gt gv : Fin 25 → Fin 64 → EReal) (e : Fin 64) : EReal :=
  ∑ g : Fin 25, softmax (tokenScore qrow gt) g * gv g e

/-- The result array: entry `(b, l, h, e)` attends query row `(b, l, h, ·)` over the guidance rows and the summaries of
    batch entry `b`, head `h`. -/
def result (q k v : FVec Ideal ⟨4, ![4, 4096, 16, 64]⟩ .f32) (gt : FVec Ideal ⟨4, ![4, 25, 16, 64]⟩ .f32) :
    FVec Ideal ⟨4, ![4, 4096, 16, 64]⟩ .f32 :=
  fun i => attend (fun e => q (ix4 (i 0) (i 1) (i 2) e)) (fun g e => gt (ix4 (i 0) g (i 2) e))
    (summary (fun l e => k (ix4 (i 0) l (i 2) e)) (fun l e => v (ix4 (i 0) l (i 2) e)) (fun g e => gt (ix4 (i 0) g (i 2) e)))
    (i 3)

/-- The result at coordinates. -/
theorem result_ix4 (q k v : FVec Ideal ⟨4, ![4, 4096, 16, 64]⟩ .f32) (gt : FVec Ideal ⟨4, ![4, 25, 16, 64]⟩ .f32)
    (b : Fin 4) (l : Fin 4096) (h : Fin 16) (e : Fin 64) :
    result q k v gt (ix4 b l h e) = attend (fun e' => q (ix4 b l h e')) (fun g e' => gt (ix4 b g h e'))
      (summary (fun l' e' => k (ix4 b l' h e')) (fun l' e' => v (ix4 b l' h e')) (fun g e' => gt (ix4 b g h e'))) e := rfl

end Cert.GuidedAttention

end
-- ==== Proof.ReferenceValue.lean ====
/-
  The reference's result is the guided-attention function of its arguments.

  The reference works on arrays transposed to [batch, head, row, lane]. Read at an index, each of its stages is the
  matching stage of the specification, at the coordinates put back in the arguments' order:
    * stage one, at (b, h, g, ·): the guidance rows scaled by the word of 1/4, times the key rows, is `keyScore` of the
      key rows (b, ·, h, ·) and the guidance rows (b, ·, h, ·); its maximum over the 4096 key rows, a fold of `max` from
      the word of −∞ over the reduced axis's coordinates, is `rowMax` (a further `max` with that word changes nothing);
      the exponential of the difference is `expShift`; its sum from zero over the 4096 rows is the softmax's denominator;
      the quotient is `softmax`; and the weighted sum of the value rows (b, ·, h, ·) is `summary`;
    * stage two, at (b, h, l, ·): the same for the scaled query row (b, l, h, ·) against the 25 guidance rows:
      `tokenScore`, `rowMax`, `expShift`, the sum, `softmax`, and the weighted sum of the summary rows, `attend`;
    * the last transpose puts (b, h, l, e) back at (b, l, h, e), where the specification's `result` is that `attend`.
  No word is evaluated: the words of 1/4 and of −∞ stand as the same terms on both sides, and the word of zero is `0`,
  the neutral element the two sums start from. Every index is built from literal coordinates, and each index equation
  between the generated reading's composed index maps and the coordinates holds coordinate by coordinate.
-/
import proofs.«415987_j38912403701947_3_alg».proof.Proof.Gen.ReferenceIdeal.Run
import proofs.«415987_j38912403701947_3_alg».proof.Proof.Gen.ReferenceIdeal.Read
import proofs.«415987_j38912403701947_3_alg».proof.Proof.GuidedAttention
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

section Stages

open Cert.ReferenceIdeal.Read Cert.GuidedAttention

/-- Stage one's score at (b, h, g, l): guidance token `g` scoring key row `l`. -/
theorem v6_ix (x1 : FVec Ideal S4x4096x16x64 .f32) (x3 : FVec Ideal S4x25x16x64 .f32)
    (b : Fin 4) (h : Fin 16) (g : Fin 25) (l : Fin 4096) :
    val_main_v6 (F := Ideal) x1 x3 (ix4 b h g l)
      = keyScore (fun l e => x1 (ix4 b l h e)) (fun g e => x3 (ix4 b g h e)) g l := by
  rw [val_main_v6_apply]
  unfold keyScore
  refine Finset.sum_congr rfl fun k _ => ?_
  rw [val_main_v5_apply, val_main_v3_apply, val_main_v4_apply, val_main_cst_apply, val_main_v1_apply]
  have e3 : idx_main_v3 (lidx_main_v6 (ix4 b h g l) k) = ix4 b g h k :=
    funext fun a => Fin.ext (by match a with | ⟨0, _⟩ => rfl | ⟨1, _⟩ => rfl | ⟨2, _⟩ => rfl | ⟨3, _⟩ => rfl)
  have e1 : idx_main_v1 (ridx_main_v6 (ix4 b h g l) k) = ix4 b l h k :=
    funext fun a => Fin.ext (by match a with | ⟨0, _⟩ => rfl | ⟨1, _⟩ => rfl | ⟨2, _⟩ => rfl | ⟨3, _⟩ => rfl)
  rw [e3, e1]
  rfl

/-- The index over (b, h, g) with `l` put on the reduced key axis is (b, h, g, l). -/
theorem lift_k (hr : S4x16x25x4096.Reduces [3] S4x16x25) (b : Fin 4) (h : Fin 16) (g : Fin 25) (l : Fin 4096) :
    hr.lift (ix3 b h g) l = ix4 b h g l :=
  funext fun a => Fin.ext (by match a with | ⟨0, _⟩ => rfl | ⟨1, _⟩ => rfl | ⟨2, _⟩ => rfl | ⟨3, _⟩ => rfl)

/-- The maximum over the key axis, a fold of `max` from the word of −∞ over its 4096 coordinates, is the row's maximum. -/
theorem v7_ix (x1 : FVec Ideal S4x4096x16x64 .f32) (x3 : FVec Ideal S4x25x16x64 .f32)
    (b : Fin 4) (h : Fin 16) (g : Fin 25) :
    val_main_v7 (F := Ideal) x1 x3 (ix3 b h g)
      = rowMax (keyScore (fun l e => x1 (ix4 b l h e)) (fun g e => x3 (ix4 b g h e)) g) := by
  have hr : S4x16x25x4096.Reduces [3] S4x16x25 := by decide
  unfold val_main_v7
  refine (Host.reduce_eq_fold_single FloatOps.maximumf _ _ Facts₀.reducesTo_S4x16x25x4096_S4x16x25_d3 hr Facts₀.h_S_ (ix3 b h g)).trans ?_
  unfold rowMax
  exact Finset.fold_congr fun l _ =>
    (congrArg (val_main_v6 (F := Ideal) x1 x3) (lift_k hr b h g l)).trans (v6_ix x1 x3 b h g l)

/-- A further `max` with the word of −∞ leaves the row's maximum as it is. -/
theorem v9_ix (x1 : FVec Ideal S4x4096x16x64 .f32) (x3 : FVec Ideal S4x25x16x64 .f32)
    (b : Fin 4) (h : Fin 16) (g : Fin 25) :
    val_main_v9 (F := Ideal) x1 x3 (ix3 b h g)
      = rowMax (keyScore (fun l e => x1 (ix4 b l h e)) (fun g e => x3 (ix4 b g h e)) g) := by
  rw [val_main_v9_apply, val_main_v8_apply, val_main_cst_1_apply, v7_ix]
  exact max_negInf_rowMax _

/-- The exponential of the score less the row's maximum is the softmax's numerator. -/
theorem v13_ix (x1 : FVec Ideal S4x4096x16x64 .f32) (x3 : FVec Ideal S4x25x16x64 .f32)
    (b : Fin 4) (h : Fin 16) (g : Fin 25) (l : Fin 4096) :
    val_main_v13 (F := Ideal) x1 x3 (ix4 b h g l)
      = expShift (keyScore (fun l e => x1 (ix4 b l h e)) (fun g e => x3 (ix4 b g h e)) g) l := by
  rw [val_main_v13_apply, val_main_v12_apply, val_main_v11_apply, val_main_v10_apply]
  have e : idx_main_v10 (idx_main_v11 (ix4 b h g l)) = ix3 b h g := funext fun a => Fin.ext (by match a with | ⟨0, _⟩ => rfl | ⟨1, _⟩ => rfl | ⟨2, _⟩ => rfl)
  rw [e, v9_ix, v6_ix]
  rfl

/-- The sum of the numerators from zero over the key axis is the softmax's denominator. -/
theorem v14_ix (x1 : FVec Ideal S4x4096x16x64 .f32) (x3 : FVec Ideal S4x25x16x64 .f32)
    (b : Fin 4) (h : Fin 16) (g : Fin 25) :
    val_main_v14 (F := Ideal) x1 x3 (ix3 b h g)
      = ∑ l : Fin 4096, expShift (keyScore (fun l e => x1 (ix4 b l h e)) (fun g e => x3 (ix4 b g h e)) g) l := by
  rw [val_main_v14_apply, val_main_cst_2_apply, Ideal.ofBits_def, Ideal.ofBits_zero_f32, zero_add]
  refine Finset.sum_congr rfl fun l _ => ?_
  have e : idx_main_v14 (ix3 b h g) l = ix4 b h g l := funext fun a => Fin.ext (by match a with | ⟨0, _⟩ => rfl | ⟨1, _⟩ => rfl | ⟨2, _⟩ => rfl | ⟨3, _⟩ => rfl)
  rw [e, v13_ix]

/-- The quotient is the softmax weight of key row `l` for guidance token `g`. -/
theorem v17_ix (x1 : FVec Ideal S4x4096x16x64 .f32) (x3 : FVec Ideal S4x25x16x64 .f32)
    (b : Fin 4) (h : Fin 16) (g : Fin 25) (l : Fin 4096) :
    val_main_v17 (F := Ideal) x1 x3 (ix4 b h g l)
      = softmax (keyScore (fun l e => x1 (ix4 b l h e)) (fun g e => x3 (ix4 b g h e)) g) l := by
  rw [val_main_v17_apply, val_main_v16_apply, val_main_v15_apply]
  have e : idx_main_v15 (idx_main_v16 (ix4 b h g l)) = ix3 b h g := funext fun a => Fin.ext (by match a with | ⟨0, _⟩ => rfl | ⟨1, _⟩ => rfl | ⟨2, _⟩ => rfl)
  rw [e, v14_ix, v13_ix]
  rfl

/-- The value rows weighted by those weights: guidance token `g`'s summary row at entry `e`. -/
theorem v18_ix (x1 x2 : FVec Ideal S4x4096x16x64 .f32) (x3 : FVec Ideal S4x25x16x64 .f32)
    (b : Fin 4) (h : Fin 16) (g : Fin 25) (e : Fin 64) :
    val_main_v18 (F := Ideal) x1 x2 x3 (ix4 b h g e)
      = summary (fun l e => x1 (ix4 b l h e)) (fun l e => x2 (ix4 b l h e)) (fun g e => x3 (ix4 b g h e)) g e := by
  rw [val_main_v18_apply]
  unfold summary
  refine Finset.sum_congr rfl fun l _ => ?_
  have el : lidx_main_v18 (ix4 b h g e) l = ix4 b h g l := funext fun a => Fin.ext (by match a with | ⟨0, _⟩ => rfl | ⟨1, _⟩ => rfl | ⟨2, _⟩ => rfl | ⟨3, _⟩ => rfl)
  have er : idx_main_v2 (ridx_main_v18 (ix4 b h g e) l) = ix4 b l h e := funext fun a => Fin.ext (by match a with | ⟨0, _⟩ => rfl | ⟨1, _⟩ => rfl | ⟨2, _⟩ => rfl | ⟨3, _⟩ => rfl)
  rw [el, v17_ix, val_main_v2_apply, er]

/-- Stage two's score at (b, h, l, g): query row `l` scoring guidance token `g`. -/
theorem v21_ix (x0 : FVec Ideal S4x4096x16x64 .f32) (x3 : FVec Ideal S4x25x16x64 .f32)
    (b : Fin 4) (h : Fin 16) (l : Fin 4096) (g : Fin 25) :
    val_main_v21 (F := Ideal) x0 x3 (ix4 b h l g)
      = tokenScore (fun e => x0 (ix4 b l h e)) (fun g e => x3 (ix4 b g h e)) g := by
  rw [val_main_v21_apply]
  unfold tokenScore
  refine Finset.sum_congr rfl fun k _ => ?_
  rw [val_main_v20_apply, val_main_v0_apply, val_main_v19_apply, val_main_cst_3_apply, val_main_v3_apply]
  have e0 : idx_main_v0 (lidx_main_v21 (ix4 b h l g) k) = ix4 b l h k := funext fun a => Fin.ext (by match a with | ⟨0, _⟩ => rfl | ⟨1, _⟩ => rfl | ⟨2, _⟩ => rfl | ⟨3, _⟩ => rfl)
  have e3 : idx_main_v3 (ridx_main_v21 (ix4 b h l g) k) = ix4 b g h k := funext fun a => Fin.ext (by match a with | ⟨0, _⟩ => rfl | ⟨1, _⟩ => rfl | ⟨2, _⟩ => rfl | ⟨3, _⟩ => rfl)
  rw [e0, e3]
  rfl

/-- The index over (b, h, l) with `g` put on the reduced token axis is (b, h, l, g). -/
theorem lift_g (hr : S4x16x4096x25.Reduces [3] S4x16x4096) (b : Fin 4) (h : Fin 16) (l : Fin 4096) (g : Fin 25) :
    hr.lift (ix3 b h l) g = ix4 b h l g :=
  funext fun a => Fin.ext (by match a with | ⟨0, _⟩ => rfl | ⟨1, _⟩ => rfl | ⟨2, _⟩ => rfl | ⟨3, _⟩ => rfl)

/-- The maximum over the token axis, a fold of `max` from the word of −∞ over its 25 coordinates, is the row's maximum. -/
theorem v22_ix (x0 : FVec Ideal S4x4096x16x64 .f32) (x3 : FVec Ideal S4x25x16x64 .f32)
    (b : Fin 4) (h : Fin 16) (l : Fin 4096) :
    val_main_v22 (F := Ideal) x0 x3 (ix3 b h l)
      = rowMax (tokenScore (fun e => x0 (ix4 b l h e)) (fun g e => x3 (ix4 b g h e))) := by
  have hr : S4x16x4096x25.Reduces [3] S4x16x4096 := by decide
  unfold val_main_v22
  refine (Host.reduce_eq_fold_single FloatOps.maximumf _ _ Facts₀.reducesTo_S4x16x4096x25_S4x16x4096_d3 hr Facts₀.h_S_ (ix3 b h l)).trans ?_
  unfold rowMax
  exact Finset.fold_congr fun g _ =>
    (congrArg (val_main_v21 (F := Ideal) x0 x3) (lift_g hr b h l g)).trans (v21_ix x0 x3 b h l g)

/-- A further `max` with the word of −∞ leaves the row's maximum as it is. -/
theorem v24_ix (x0 : FVec Ideal S4x4096x16x64 .f32) (x3 : FVec Ideal S4x25x16x64 .f32)
    (b : Fin 4) (h : Fin 16) (l : Fin 4096) :
    val_main_v24 (F := Ideal) x0 x3 (ix3 b h l)
      = rowMax (tokenScore (fun e => x0 (ix4 b l h e)) (fun g e => x3 (ix4 b g h e))) := by
  rw [val_main_v24_apply, val_main_v23_apply, val_main_cst_5_apply, v22_ix]
  exact max_negInf_rowMax _

/-- The exponential of the score less the row's maximum is the softmax's numerator. -/
theorem v28_ix (x0 : FVec Ideal S4x4096x16x64 .f32) (x3 : FVec Ideal S4x25x16x64 .f32)
    (b : Fin 4) (h : Fin 16) (l : Fin 4096) (g : Fin 25) :
    val_main_v28 (F := Ideal) x0 x3 (ix4 b h l g)
      = expShift (tokenScore (fun e => x0 (ix4 b l h e)) (fun g e => x3 (ix4 b g h e))) g := by
  rw [val_main_v28_apply, val_main_v27_apply, val_main_v26_apply, val_main_v25_apply]
  have e : idx_main_v25 (idx_main_v26 (ix4 b h l g)) = ix3 b h l := funext fun a => Fin.ext (by match a with | ⟨0, _⟩ => rfl | ⟨1, _⟩ => rfl | ⟨2, _⟩ => rfl)
  rw [e, v24_ix, v21_ix]
  rfl

/-- The sum of the numerators from zero over the token axis is the softmax's denominator. -/
theorem v29_ix (x0 : FVec Ideal S4x4096x16x64 .f32) (x3 : FVec Ideal S4x25x16x64 .f32)
    (b : Fin 4) (h : Fin 16) (l : Fin 4096) :
    val_main_v29 (F := Ideal) x0 x3 (ix3 b h l)
      = ∑ g : Fin 25, expShift (tokenScore (fun e => x0 (ix4 b l h e)) (fun g e => x3 (ix4 b g h e))) g := by
  rw [val_main_v29_apply, val_main_cst_6_apply, Ideal.ofBits_def, Ideal.ofBits_zero_f32, zero_add]
  refine Finset.sum_congr rfl fun g _ => ?_
  have e : idx_main_v29 (ix3 b h l) g = ix4 b h l g := funext fun a => Fin.ext (by match a with | ⟨0, _⟩ => rfl | ⟨1, _⟩ => rfl | ⟨2, _⟩ => rfl | ⟨3, _⟩ => rfl)
  rw [e, v28_ix]

/-- The quotient is the softmax weight of guidance token `g` for query row `l`. -/
theorem v32_ix (x0 : FVec Ideal S4x4096x16x64 .f32) (x3 : FVec Ideal S4x25x16x64 .f32)
    (b : Fin 4) (h : Fin 16) (l : Fin 4096) (g : Fin 25) :
    val_main_v32 (F := Ideal) x0 x3 (ix4 b h l g)
      = softmax (tokenScore (fun e => x0 (ix4 b l h e)) (fun g e => x3 (ix4 b g h e))) g := by
  rw [val_main_v32_apply, val_main_v31_apply, val_main_v30_apply]
  have e : idx_main_v30 (idx_main_v31 (ix4 b h l g)) = ix3 b h l := funext fun a => Fin.ext (by match a with | ⟨0, _⟩ => rfl | ⟨1, _⟩ => rfl | ⟨2, _⟩ => rfl)
  rw [e, v29_ix, v28_ix]
  rfl

/-- The summary rows weighted by those weights: query row `l`'s result row at entry `e`. -/
theorem v33_ix (x0 x1 x2 : FVec Ideal S4x4096x16x64 .f32) (x3 : FVec Ideal S4x25x16x64 .f32)
    (b : Fin 4) (h : Fin 16) (l : Fin 4096) (e : Fin 64) :
    val_main_v33 (F := Ideal) x0 x1 x2 x3 (ix4 b h l e)
      = attend (fun e => x0 (ix4 b l h e)) (fun g e => x3 (ix4 b g h e))
          (summary (fun l e => x1 (ix4 b l h e)) (fun l e => x2 (ix4 b l h e)) (fun g e => x3 (ix4 b g h e))) e := by
  rw [val_main_v33_apply]
  unfold attend
  refine Finset.sum_congr rfl fun g _ => ?_
  have el : lidx_main_v33 (ix4 b h l e) g = ix4 b h l g := funext fun a => Fin.ext (by match a with | ⟨0, _⟩ => rfl | ⟨1, _⟩ => rfl | ⟨2, _⟩ => rfl | ⟨3, _⟩ => rfl)
  have er : ridx_main_v33 (ix4 b h l e) g = ix4 b h g e := funext fun a => Fin.ext (by match a with | ⟨0, _⟩ => rfl | ⟨1, _⟩ => rfl | ⟨2, _⟩ => rfl | ⟨3, _⟩ => rfl)
  rw [el, er, v32_ix, v18_ix]

end Stages

/-- The reference's last stage, as a function of the four float arguments, is the guided-attention result. -/
theorem reference_eq (x0 x1 x2 : FVec Ideal S4x4096x16x64 .f32) (x3 : FVec Ideal S4x25x16x64 .f32) :
    Cert.ReferenceIdeal.Read.val_main_v34 (F := Ideal) x0 x1 x2 x3 = Cert.GuidedAttention.result x0 x1 x2 x3 := by
  funext i
  obtain ⟨b, l, h, e, rfl⟩ : ∃ b l h e, i = ix4 b l h e := ⟨i 0, i 1, i 2, i 3, eq_ix4 i⟩
  rw [Cert.ReferenceIdeal.Read.val_main_v34_apply, Cert.GuidedAttention.result_ix4]
  have e34 : Cert.ReferenceIdeal.Read.idx_main_v34 (ix4 b l h e) = ix4 b h l e := funext fun a => Fin.ext (by match a with | ⟨0, _⟩ => rfl | ⟨1, _⟩ => rfl | ⟨2, _⟩ => rfl | ⟨3, _⟩ => rfl)
  rw [e34, v33_ix]

end Cert.ReferenceIdeal.RefValue

end
-- ==== Proof.Heads.lean ====
/-
  The kernel body's arithmetic, cut where the mathematics cuts it: per head of 64 lanes and per chunk of 1024 query rows.

  A grid point holds, for one batch entry and four consecutive heads, the key, value and query rows (4096 × 256) and the
  guidance rows (25 × 256); head `hh` of the four owns lanes `64·hh … 64·hh + 63`. For one head:
    * `summaryRows k v gt` — stage one: the guidance rows scaled by 1/4 score the key rows (a product contracting the 64
      lanes), each row of 4096 scores is shifted by its maximum, exponentiated and divided by its sum, and the weights
      contract with the value rows over the 4096 rows: 25 summary rows of 64 lanes;
    * `keyRows gt` — the guidance rows themselves, as stage two contracts against them;
    * `attendRows q gtb gv` — stage two for one chunk of 1024 query rows: the rows scaled by 1/4 score the 25 guidance rows,
      each row of 25 scores is shifted by its maximum, exponentiated and divided by its sum, and the weights contract
      with the 25 summary rows.
  `chunkRows` lays the four heads' results for a chunk side by side along the lanes, as one block of 1024 × 256 under a
  leading unit axis — what one store of the body writes. The definitions hold at every float instance; the narrowing to
  the 16-bit format before each product is part of them and is the identity at the ideal instance.
-/
import proofs.«415987_j38912403701947_3_alg».proof.Proof.Gen.KernelIdeal

noncomputable section

namespace Cert.KernelIdeal.Heads

open Idealize.ShloMosaic Cert.KernelIdeal Cert.KernelIdeal.Gen

variable {F : FTy → Type} [FloatOps F]

/-- Stage one for one head: the 25 summary rows from the head's key rows `k`, value rows `v` and guidance rows `gt`. -/
def summaryRows (k v : FVec F S4096x64 .f32) (gt : FVec F S25x64 .f32) : FVec F S25x64 .bf16 :=
  have cst : F .f32 := Scalar.ofBits .f32 0x3E800000#32
  have gs : FVec F S25x64 .bf16 := truncf .bf16 (mulf gt (broadcast S25x64 cst)) bitsLt_bf16_f32
  have kb : FVec F S4096x64 .bf16 := truncf .bf16 k bitsLt_bf16_f32
  have sc : FVec F S25x4096 .f32 := matmul dot_S25x64_S4096x64_S25x4096_1_1_0_0_n_n none gs kb (constant S25x4096 .f32 0x00000000#32)
  have mx : FVec F S25 .f32 := multiReduction .maximumf [1] S25 sc 0xFF800000#32 reduces_S25x4096_S25 (.inl rfl) rfl
  have ex : FVec F S25x4096 .f32 := exp (subf sc (broadcastTo S25x4096 (shapeCast S25x1 mx shapeCasts_S25_S25x1) broadcasts_S25x1_S25x4096))
  have dn : FVec F S25 .f32 := multiReduction .add [1] S25 ex 0x00000000#32 reduces_S25x4096_S25 (.inl rfl) rfl
  have wt : FVec F S25x4096 .bf16 := truncf .bf16 (divf ex (broadcastTo S25x4096 (shapeCast S25x1 dn shapeCasts_S25_S25x1) broadcasts_S25x1_S25x4096)) bitsLt_bf16_f32
  have vb : FVec F S4096x64 .bf16 := truncf .bf16 v bitsLt_bf16_f32
  truncf .bf16 (matmul dot_S25x4096_S4096x64_S25x64_1_0_0_1_n_n none wt vb (constant S25x64 .f32 0x00000000#32)) bitsLt_bf16_f32

/-- The guidance rows as stage two contracts against them. -/
def keyRows (gt : FVec F S25x64 .f32) : FVec F S25x64 .bf16 := truncf .bf16 gt bitsLt_bf16_f32

/-- Stage two for one head and one chunk of 1024 query rows `q`, over the head's guidance rows `gtb` and summary rows `gv`. -/
def attendRows (q : FVec F S1024x64 .f32) (gtb gv : FVec F S25x64 .bf16) : FVec F S1024x64 .f32 :=
  have cst : F .f32 := Scalar.ofBits .f32 0x3E800000#32
  have qs : FVec F S1024x64 .bf16 := truncf .bf16 (mulf q (broadcast S1024x64 cst)) bitsLt_bf16_f32
  have sc : FVec F S1024x25 .f32 := matmul dot_S1024x64_S25x64_S1024x25_1_1_0_0_n_n none qs gtb (constant S1024x25 .f32 0x00000000#32)
  have mx : FVec F S1024 .f32 := multiReduction .maximumf [1] S1024 sc 0xFF800000#32 reduces_S1024x25_S1024 (.inl rfl) rfl
  have ex : FVec F S1024x25 .f32 := exp (subf sc (broadcastTo S1024x25 (shapeCast S1024x1 mx shapeCasts_S1024_S1024x1) broadcasts_S1024x1_S1024x25))
  have dn : FVec F S1024 .f32 := multiReduction .add [1] S1024 ex 0x00000000#32 reduces_S1024x25_S1024 (.inl rfl) rfl
  have wt : FVec F S1024x25 .bf16 := truncf .bf16 (divf ex (broadcastTo S1024x25 (shapeCast S1024x1 dn shapeCasts_S1024_S1024x1) broadcasts_S1024x1_S1024x25)) bitsLt_bf16_f32
  matmul dot_S1024x25_S25x64_S1024x64_1_0_0_1_n_n none wt gv (constant S1024x64 .f32 0x00000000#32)

/-- One chunk's block: the four heads' results side by side along the lanes, under a leading unit axis. -/
def chunkRows (a0 a1 a2 a3 : FVec F S1024x64 .f32) : FVec F S1x1024x256 .f32 :=
  shapeCast S1x1024x256
    (concatenate S1024x256 1 [⟨S1024x64, a0⟩, ⟨S1024x64, a1⟩, ⟨S1024x64, a2⟩, ⟨S1024x64, a3⟩]
      concatenates_S1024x64_S1024x64_S1024x64_S1024x64_S1024x256_d1)
    shapeCasts_S1024x256_S1x1024x256

end Cert.KernelIdeal.Heads

end
-- ==== Proof.Pieces.lean ====
/-
  What each of the body's four stores writes, in the per-head units.

  The body stores one block of 1024 rows × 256 lanes per chunk of query rows. Its value is built from loads of the four
  staged inputs: for head `hh` (lanes `64·hh …`) the 4096 key rows `kk`, the 4096 value rows `vv`, the 25 guidance rows `gg`,
  and the chunk's 1024 query rows `qq`, each loaded under a leading unit axis. `headRows kk vv gg qq` is that head's
  result for the chunk: stage two of the query rows over the guidance rows and the stage-one summaries.
  Each store's value, as the body composes it, is `chunkRows` of the four heads' `headRows`: the body's compositions and
  these group the same operations differently, so each equation holds by unfolding the definitions.
-/
import proofs.«415987_j38912403701947_3_alg».proof.Proof.Gen.KernelIdeal.Skeleton
import proofs.«415987_j38912403701947_3_alg».proof.Proof.Heads

noncomputable section

namespace Cert.KernelIdeal.Pieces

open Idealize.ShloMosaic Cert.KernelIdeal Cert.KernelIdeal.Gen Cert.KernelIdeal.Heads

variable {F : FTy → Type} [FloatOps F]

/-- One head's result for one chunk, from its loaded key, value, guidance and query rows. -/
def headRows (kk vv : Vec F S1x4096x64 .f32) (gg : Vec F S1x25x64 .f32) (qq : Vec F S1x1024x64 .f32) : FVec F S1024x64 .f32 :=
  attendRows (shapeCast S1024x64 qq shapeCasts_S1x1024x64_S1024x64)
    (keyRows (shapeCast S25x64 gg shapeCasts_S1x25x64_S25x64))
    (summaryRows (shapeCast S4096x64 kk shapeCasts_S1x4096x64_S4096x64) (shapeCast S4096x64 vv shapeCasts_S1x4096x64_S4096x64)
      (shapeCast S25x64 gg shapeCasts_S1x25x64_S25x64))

variable (kk0 vv0 kk1 vv1 kk2 vv2 kk3 vv3 : Vec F S1x4096x64 .f32) (gg0 gg1 gg2 gg3 : Vec F S1x25x64 .f32)
  (qq0 qq1 qq2 qq3 : Vec F S1x1024x64 .f32)

/-- The first chunk's store (query rows 0 … 1023). -/
theorem store0_eq :
    k0_pay21 (k0_pay15 kk3 vv3 gg3) (k0_pay16 gg3) (k0_pay18 (k0_pay3 kk0 vv0 gg0) (k0_pay17 (k0_pay4 gg0) qq0))
        (k0_pay19 (k0_pay9 (k0_pay5 kk1) (k0_pay6 vv1) (k0_pay8 gg1)) (k0_pay10 (k0_pay7 gg1)) qq1)
        (k0_pay20 (k0_pay12 kk2 vv2 gg2) (k0_pay13 gg2) qq2) qq3
      = chunkRows (headRows kk0 vv0 gg0 qq0) (headRows kk1 vv1 gg1 qq1) (headRows kk2 vv2 gg2 qq2) (headRows kk3 vv3 gg3 qq3) := rfl

/-- The second chunk's store (query rows 1024 … 2047). -/
theorem store1_eq :
    k0_pay26 (k0_pay15 kk3 vv3 gg3) (k0_pay22 (k0_pay3 kk0 vv0 gg0) (k0_pay4 gg0) qq0)
        (k0_pay23 (k0_pay9 (k0_pay5 kk1) (k0_pay6 vv1) (k0_pay8 gg1)) (k0_pay10 (k0_pay7 gg1)) qq1)
        (k0_pay24 (k0_pay12 kk2 vv2 gg2) (k0_pay13 gg2) qq2) (k0_pay25 (k0_pay16 gg3) qq3)
      = chunkRows (headRows kk0 vv0 gg0 qq0) (headRows kk1 vv1 gg1 qq1) (headRows kk2 vv2 gg2 qq2) (headRows kk3 vv3 gg3 qq3) := rfl

/-- The third chunk's store (query rows 2048 … 3071). -/
theorem store2_eq :
    k0_pay33 (k0_pay15 kk3 vv3 gg3) (k0_pay27 (k0_pay3 kk0 vv0 gg0) (k0_pay4 gg0) qq0)
        (k0_pay29 (k0_pay9 (k0_pay5 kk1) (k0_pay6 vv1) (k0_pay8 gg1)) (k0_pay10 (k0_pay7 gg1)) (k0_pay28 qq1))
        (k0_pay30 (k0_pay12 kk2 vv2 gg2) (k0_pay13 gg2) qq2) (k0_pay31 (k0_pay16 gg3) qq3) (k0_pay32 (k0_pay16 gg3) qq3)
      = chunkRows (headRows kk0 vv0 gg0 qq0) (headRows kk1 vv1 gg1 qq1) (headRows kk2 vv2 gg2 qq2) (headRows kk3 vv3 gg3 qq3) := rfl

/-- The fourth chunk's store (query rows 3072 … 4095). -/
theorem store3_eq :
    k0_pay1 (k0_pay36 (k0_pay9 (k0_pay5 kk1) (k0_pay6 vv1) (k0_pay8 gg1)) (k0_pay12 kk2 vv2 gg2) (k0_pay13 gg2)
        (k0_pay15 kk3 vv3 gg3) (k0_pay16 gg3) (k0_pay34 (k0_pay3 kk0 vv0 gg0) (k0_pay4 gg0) qq0)
        (k0_pay35 (k0_pay10 (k0_pay7 gg1)) qq1) qq2 qq3)
      = chunkRows (headRows kk0 vv0 gg0 qq0) (headRows kk1 vv1 gg1 qq1) (headRows kk2 vv2 gg2 qq2) (headRows kk3 vv3 gg3 qq3) := rfl

end Cert.KernelIdeal.Pieces

end
-- ==== Proof.HeadsValue.lean ====
/-
  The per-head units of the kernel body read at an index, at the ideal instance, where a float is an extended real, the
  narrowing to the 16-bit format is the identity, the exponential is the extended reals' and the division theirs.

  Both stages of a head have one shape: scores by a product contracting the 64 lanes, a softmax of each row of scores
  (the row is shifted by its maximum, exponentiated, and divided by the sum of its exponentials), then a product
  contracting the softmax axis. So the file proves, in this order:
    * each of the four products, into the zero accumulator, read at a result index `(i, j)`: the sum over the one
      contracted axis of the products of the operands' entries (the zero accumulator's word is the real zero, which a sum
      absorbs);
    * for an `a × b` array, the reduction over the columns read at row `r` — the maximum as the fold of `max` from the
      word of −∞ over the row, the sum as the sum over the row —, a vector of row values viewed as a column and spread
      along the rows read at `(r, c)` (the value of row `r`), and from these the weight at `(r, c)` as the softmax weight
      of entry `c` of row `r`;
    * stage one at `(g, e)` as the specification's `summary` and stage two at `(r, e)` as its `attend`: the outer product's
      sum, term by term, with the weight lemma at the row of scores; the scale 1/4 and the word of −∞ are the same terms
      on both sides and are never evaluated;
    * a chunk's block at `(0, r, 64·hh + e)`: the leading unit axis is dropped, and along the lanes the four pieces of 64
      lanes are laid end to end, so lane `64·hh + e` falls in piece `hh` at lane `e`.
  Nothing here needs the entries to be finite.
-/
import proofs.«415987_j38912403701947_3_alg».proof.Proof.Heads
import proofs.«415987_j38912403701947_3_alg».proof.Proof.GuidedAttention
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Heads

open Idealize.ShloMosaic Idealize.ShloMosaic.ValueIdx Cert.KernelIdeal Cert.KernelIdeal.Gen

/-! ## The four products of a head read at an index

A product into the zero accumulator, read at a result index, is the sum over the one contracted axis of the products of
the operands' entries; each of the four dimension records says which coordinate of an operand's index comes from the
result index and which from the contraction. -/

/-! ### Stage one's scores: 25 × 64 against 4096 × 64, contracting the lanes -/

theorem lhs_sc1_0 (i : S25x4096.Idx) (q : dot_S25x64_S4096x64_S25x4096_1_1_0_0_n_n.contr.Idx) :
    (dot_S25x64_S4096x64_S25x4096_1_1_0_0_n_n.lhsIdx i q 0).val = (i 0).val := by
  unfold DotDims.lhsIdx
  rw [dif_neg (show ¬(0 : Fin S25x64.rank) ∈ dot_S25x64_S4096x64_S25x4096_1_1_0_0_n_n.lhsBatch by decide), dif_pos (show (0 : Fin S25x64.rank) ∈ dot_S25x64_S4096x64_S25x4096_1_1_0_0_n_n.lhsNonContracting by decide)]
  rfl
theorem lhs_sc1_1 (i : S25x4096.Idx) (q : dot_S25x64_S4096x64_S25x4096_1_1_0_0_n_n.contr.Idx) :
    (dot_S25x64_S4096x64_S25x4096_1_1_0_0_n_n.lhsIdx i q 1).val = (q ⟨0, by decide⟩).val :=
  dot_S25x64_S4096x64_S25x4096_1_1_0_0_n_n.lhsIdx_val_of_single rfl i q
theorem rhs_sc1_0 (i : S25x4096.Idx) (q : dot_S25x64_S4096x64_S25x4096_1_1_0_0_n_n.contr.Idx) :
    (dot_S25x64_S4096x64_S25x4096_1_1_0_0_n_n.rhsIdx i q 0).val = (i 1).val := by
  unfold DotDims.rhsIdx
  rw [dif_neg (show ¬(0 : Fin S4096x64.rank) ∈ dot_S25x64_S4096x64_S25x4096_1_1_0_0_n_n.rhsBatch by decide), dif_pos (show (0 : Fin S4096x64.rank) ∈ dot_S25x64_S4096x64_S25x4096_1_1_0_0_n_n.rhsNonContracting by decide)]
  rfl
theorem rhs_sc1_1 (i : S25x4096.Idx) (q : dot_S25x64_S4096x64_S25x4096_1_1_0_0_n_n.contr.Idx) :
    (dot_S25x64_S4096x64_S25x4096_1_1_0_0_n_n.rhsIdx i q 1).val = (q ⟨0, by decide⟩).val :=
  dot_S25x64_S4096x64_S25x4096_1_1_0_0_n_n.rhsIdx_val_of_single rfl i q

/-- The score of key row `l` under guidance row `g`: the sum over the 64 lanes of the products. -/
theorem matmul_sc1_apply (x : FVec Ideal S25x64 .bf16) (y : FVec Ideal S4096x64 .bf16) (g : Fin 25) (l : Fin 4096) :
    matmul dot_S25x64_S4096x64_S25x4096_1_1_0_0_n_n none x y (constant (F := Ideal) S25x4096 .f32 0x00000000#32) (ix2 g l)
      = ∑ e : Fin 64, x (ix2 g e) * y (ix2 l e) := by
  show FloatOps.matmul dot_S25x64_S4096x64_S25x4096_1_1_0_0_n_n none x y (constant (F := Ideal) S25x4096 .f32 0x00000000#32) (ix2 g l) = _
  rw [Ideal.matmul_constant_zero_apply, ← Equiv.sum_comp (contrEquiv1 dot_S25x64_S4096x64_S25x4096_1_1_0_0_n_n 64 rfl rfl).symm]
  refine Finset.sum_congr rfl fun k _ => ?_
  have hk := contrEquiv1_symm_val dot_S25x64_S4096x64_S25x4096_1_1_0_0_n_n 64 rfl rfl k
  have el : dot_S25x64_S4096x64_S25x4096_1_1_0_0_n_n.lhsIdx (ix2 g l) ((contrEquiv1 dot_S25x64_S4096x64_S25x4096_1_1_0_0_n_n 64 rfl rfl).symm k) = ix2 g k := funext fun a => Fin.ext (by
    match a with
    | ⟨0, _⟩ => exact lhs_sc1_0 _ _
    | ⟨1, _⟩ => exact (lhs_sc1_1 _ _).trans hk)
  have er : dot_S25x64_S4096x64_S25x4096_1_1_0_0_n_n.rhsIdx (ix2 g l) ((contrEquiv1 dot_S25x64_S4096x64_S25x4096_1_1_0_0_n_n 64 rfl rfl).symm k) = ix2 l k := funext fun a => Fin.ext (by
    match a with
    | ⟨0, _⟩ => exact rhs_sc1_0 _ _
    | ⟨1, _⟩ => exact (rhs_sc1_1 _ _).trans hk)
  rw [el, er]

/-! ### Stage one's weighted sum: 25 × 4096 against 4096 × 64, contracting the 4096 rows -/

theorem lhs_sv1_0 (i : S25x64.Idx) (q : dot_S25x4096_S4096x64_S25x64_1_0_0_1_n_n.contr.Idx) :
    (dot_S25x4096_S4096x64_S25x64_1_0_0_1_n_n.lhsIdx i q 0).val = (i 0).val := by
  unfold DotDims.lhsIdx
  rw [dif_neg (show ¬(0 : Fin S25x4096.rank) ∈ dot_S25x4096_S4096x64_S25x64_1_0_0_1_n_n.lhsBatch by decide), dif_pos (show (0 : Fin S25x4096.rank) ∈ dot_S25x4096_S4096x64_S25x64_1_0_0_1_n_n.lhsNonContracting by decide)]
  rfl
theorem lhs_sv1_1 (i : S25x64.Idx) (q : dot_S25x4096_S4096x64_S25x64_1_0_0_1_n_n.contr.Idx) :
    (dot_S25x4096_S4096x64_S25x64_1_0_0_1_n_n.lhsIdx i q 1).val = (q ⟨0, by decide⟩).val :=
  dot_S25x4096_S4096x64_S25x64_1_0_0_1_n_n.lhsIdx_val_of_single rfl i q
theorem rhs_sv1_0 (i : S25x64.Idx) (q : dot_S25x4096_S4096x64_S25x64_1_0_0_1_n_n.contr.Idx) :
    (dot_S25x4096_S4096x64_S25x64_1_0_0_1_n_n.rhsIdx i q 0).val = (q ⟨0, by decide⟩).val :=
  dot_S25x4096_S4096x64_S25x64_1_0_0_1_n_n.rhsIdx_val_of_single rfl i q
theorem rhs_sv1_1 (i : S25x64.Idx) (q : dot_S25x4096_S4096x64_S25x64_1_0_0_1_n_n.contr.Idx) :
    (dot_S25x4096_S4096x64_S25x64_1_0_0_1_n_n.rhsIdx i q 1).val = (i 1).val := by
  unfold DotDims.rhsIdx
  rw [dif_neg (show ¬(1 : Fin S4096x64.rank) ∈ dot_S25x4096_S4096x64_S25x64_1_0_0_1_n_n.rhsBatch by decide), dif_pos (show (1 : Fin S4096x64.rank) ∈ dot_S25x4096_S4096x64_S25x64_1_0_0_1_n_n.rhsNonContracting by decide)]
  rfl

/-- The weights of row `g` against lane `e` of the value rows: the sum over the 4096 rows of the products. -/
theorem matmul_sv1_apply (x : FVec Ideal S25x4096 .bf16) (y : FVec Ideal S4096x64 .bf16) (g : Fin 25) (e : Fin 64) :
    matmul dot_S25x4096_S4096x64_S25x64_1_0_0_1_n_n none x y (constant (F := Ideal) S25x64 .f32 0x00000000#32) (ix2 g e)
      = ∑ l : Fin 4096, x (ix2 g l) * y (ix2 l e) := by
  show FloatOps.matmul dot_S25x4096_S4096x64_S25x64_1_0_0_1_n_n none x y (constant (F := Ideal) S25x64 .f32 0x00000000#32) (ix2 g e) = _
  rw [Ideal.matmul_constant_zero_apply, ← Equiv.sum_comp (contrEquiv1 dot_S25x4096_S4096x64_S25x64_1_0_0_1_n_n 4096 rfl rfl).symm]
  refine Finset.sum_congr rfl fun k _ => ?_
  have hk := contrEquiv1_symm_val dot_S25x4096_S4096x64_S25x64_1_0_0_1_n_n 4096 rfl rfl k
  have el : dot_S25x4096_S4096x64_S25x64_1_0_0_1_n_n.lhsIdx (ix2 g e) ((contrEquiv1 dot_S25x4096_S4096x64_S25x64_1_0_0_1_n_n 4096 rfl rfl).symm k) = ix2 g k := funext fun a => Fin.ext (by
    match a with
    | ⟨0, _⟩ => exact lhs_sv1_0 _ _
    | ⟨1, _⟩ => exact (lhs_sv1_1 _ _).trans hk)
  have er : dot_S25x4096_S4096x64_S25x64_1_0_0_1_n_n.rhsIdx (ix2 g e) ((contrEquiv1 dot_S25x4096_S4096x64_S25x64_1_0_0_1_n_n 4096 rfl rfl).symm k) = ix2 k e := funext fun a => Fin.ext (by
    match a with
    | ⟨0, _⟩ => exact (rhs_sv1_0 _ _).trans hk
    | ⟨1, _⟩ => exact rhs_sv1_1 _ _)
  rw [el, er]

/-! ### Stage two's scores: 1024 × 64 against 25 × 64, contracting the lanes -/

theorem lhs_sc2_0 (i : S1024x25.Idx) (q : dot_S1024x64_S25x64_S1024x25_1_1_0_0_n_n.contr.Idx) :
    (dot_S1024x64_S25x64_S1024x25_1_1_0_0_n_n.lhsIdx i q 0).val = (i 0).val := by
  unfold DotDims.lhsIdx
  rw [dif_neg (show ¬(0 : Fin S1024x64.rank) ∈ dot_S1024x64_S25x64_S1024x25_1_1_0_0_n_n.lhsBatch by decide), dif_pos (show (0 : Fin S1024x64.rank) ∈ dot_S1024x64_S25x64_S1024x25_1_1_0_0_n_n.lhsNonContracting by decide)]
  rfl
theorem lhs_sc2_1 (i : S1024x25.Idx) (q : dot_S1024x64_S25x64_S1024x25_1_1_0_0_n_n.contr.Idx) :
    (dot_S1024x64_S25x64_S1024x25_1_1_0_0_n_n.lhsIdx i q 1).val = (q ⟨0, by decide⟩).val :=
  dot_S1024x64_S25x64_S1024x25_1_1_0_0_n_n.lhsIdx_val_of_single rfl i q
theorem rhs_sc2_0 (i : S1024x25.Idx) (q : dot_S1024x64_S25x64_S1024x25_1_1_0_0_n_n.contr.Idx) :
    (dot_S1024x64_S25x64_S1024x25_1_1_0_0_n_n.rhsIdx i q 0).val = (i 1).val := by
  unfold DotDims.rhsIdx
  rw [dif_neg (show ¬(0 : Fin S25x64.rank) ∈ dot_S1024x64_S25x64_S1024x25_1_1_0_0_n_n.rhsBatch by decide), dif_pos (show (0 : Fin S25x64.rank) ∈ dot_S1024x64_S25x64_S1024x25_1_1_0_0_n_n.rhsNonContracting by decide)]
  rfl
theorem rhs_sc2_1 (i : S1024x25.Idx) (q : dot_S1024x64_S25x64_S1024x25_1_1_0_0_n_n.contr.Idx) :
    (dot_S1024x64_S25x64_S1024x25_1_1_0_0_n_n.rhsIdx i q 1).val = (q ⟨0, by decide⟩).val :=
  dot_S1024x64_S25x64_S1024x25_1_1_0_0_n_n.rhsIdx_val_of_single rfl i q

/-- The score of guidance row `g` under query row `r`: the sum over the 64 lanes of the products. -/
theorem matmul_sc2_apply (x : FVec Ideal S1024x64 .bf16) (y : FVec Ideal S25x64 .bf16) (r : Fin 1024) (g : Fin 25) :
    matmul dot_S1024x64_S25x64_S1024x25_1_1_0_0_n_n none x y (constant (F := Ideal) S1024x25 .f32 0x00000000#32) (ix2 r g)
      = ∑ e : Fin 64, x (ix2 r e) * y (ix2 g e) := by
  show FloatOps.matmul dot_S1024x64_S25x64_S1024x25_1_1_0_0_n_n none x y (constant (F := Ideal) S1024x25 .f32 0x00000000#32) (ix2 r g) = _
  rw [Ideal.matmul_constant_zero_apply, ← Equiv.sum_comp (contrEquiv1 dot_S1024x64_S25x64_S1024x25_1_1_0_0_n_n 64 rfl rfl).symm]
  refine Finset.sum_congr rfl fun k _ => ?_
  have hk := contrEquiv1_symm_val dot_S1024x64_S25x64_S1024x25_1_1_0_0_n_n 64 rfl rfl k
  have el : dot_S1024x64_S25x64_S1024x25_1_1_0_0_n_n.lhsIdx (ix2 r g) ((contrEquiv1 dot_S1024x64_S25x64_S1024x25_1_1_0_0_n_n 64 rfl rfl).symm k) = ix2 r k := funext fun a => Fin.ext (by
    match a with
    | ⟨0, _⟩ => exact lhs_sc2_0 _ _
    | ⟨1, _⟩ => exact (lhs_sc2_1 _ _).trans hk)
  have er : dot_S1024x64_S25x64_S1024x25_1_1_0_0_n_n.rhsIdx (ix2 r g) ((contrEquiv1 dot_S1024x64_S25x64_S1024x25_1_1_0_0_n_n 64 rfl rfl).symm k) = ix2 g k := funext fun a => Fin.ext (by
    match a with
    | ⟨0, _⟩ => exact rhs_sc2_0 _ _
    | ⟨1, _⟩ => exact (rhs_sc2_1 _ _).trans hk)
  rw [el, er]

/-! ### Stage two's weighted sum: 1024 × 25 against 25 × 64, contracting the 25 rows -/

theorem lhs_sv2_0 (i : S1024x64.Idx) (q : dot_S1024x25_S25x64_S1024x64_1_0_0_1_n_n.contr.Idx) :
    (dot_S1024x25_S25x64_S1024x64_1_0_0_1_n_n.lhsIdx i q 0).val = (i 0).val := by
  unfold DotDims.lhsIdx
  rw [dif_neg (show ¬(0 : Fin S1024x25.rank) ∈ dot_S1024x25_S25x64_S1024x64_1_0_0_1_n_n.lhsBatch by decide), dif_pos (show (0 : Fin S1024x25.rank) ∈ dot_S1024x25_S25x64_S1024x64_1_0_0_1_n_n.lhsNonContracting by decide)]
  rfl
theorem lhs_sv2_1 (i : S1024x64.Idx) (q : dot_S1024x25_S25x64_S1024x64_1_0_0_1_n_n.contr.Idx) :
    (dot_S1024x25_S25x64_S1024x64_1_0_0_1_n_n.lhsIdx i q 1).val = (q ⟨0, by decide⟩).val :=
  dot_S1024x25_S25x64_S1024x64_1_0_0_1_n_n.lhsIdx_val_of_single rfl i q
theorem rhs_sv2_0 (i : S1024x64.Idx) (q : dot_S1024x25_S25x64_S1024x64_1_0_0_1_n_n.contr.Idx) :
    (dot_S1024x25_S25x64_S1024x64_1_0_0_1_n_n.rhsIdx i q 0).val = (q ⟨0, by decide⟩).val :=
  dot_S1024x25_S25x64_S1024x64_1_0_0_1_n_n.rhsIdx_val_of_single rfl i q
theorem rhs_sv2_1 (i : S1024x64.Idx) (q : dot_S1024x25_S25x64_S1024x64_1_0_0_1_n_n.contr.Idx) :
    (dot_S1024x25_S25x64_S1024x64_1_0_0_1_n_n.rhsIdx i q 1).val = (i 1).val := by
  unfold DotDims.rhsIdx
  rw [dif_neg (show ¬(1 : Fin S25x64.rank) ∈ dot_S1024x25_S25x64_S1024x64_1_0_0_1_n_n.rhsBatch by decide), dif_pos (show (1 : Fin S25x64.rank) ∈ dot_S1024x25_S25x64_S1024x64_1_0_0_1_n_n.rhsNonContracting by decide)]
  rfl

/-- The weights of query row `r` against lane `e` of the summary rows: the sum over the 25 rows of the products. -/
theorem matmul_sv2_apply (x : FVec Ideal S1024x25 .bf16) (y : FVec Ideal S25x64 .bf16) (r : Fin 1024) (e : Fin 64) :
    matmul dot_S1024x25_S25x64_S1024x64_1_0_0_1_n_n none x y (constant (F := Ideal) S1024x64 .f32 0x00000000#32) (ix2 r e)
      = ∑ g : Fin 25, x (ix2 r g) * y (ix2 g e) := by
  show FloatOps.matmul dot_S1024x25_S25x64_S1024x64_1_0_0_1_n_n none x y (constant (F := Ideal) S1024x64 .f32 0x00000000#32) (ix2 r e) = _
  rw [Ideal.matmul_constant_zero_apply, ← Equiv.sum_comp (contrEquiv1 dot_S1024x25_S25x64_S1024x64_1_0_0_1_n_n 25 rfl rfl).symm]
  refine Finset.sum_congr rfl fun k _ => ?_
  have hk := contrEquiv1_symm_val dot_S1024x25_S25x64_S1024x64_1_0_0_1_n_n 25 rfl rfl k
  have el : dot_S1024x25_S25x64_S1024x64_1_0_0_1_n_n.lhsIdx (ix2 r e) ((contrEquiv1 dot_S1024x25_S25x64_S1024x64_1_0_0_1_n_n 25 rfl rfl).symm k) = ix2 r k := funext fun a => Fin.ext (by
    match a with
    | ⟨0, _⟩ => exact lhs_sv2_0 _ _
    | ⟨1, _⟩ => exact (lhs_sv2_1 _ _).trans hk)
  have er : dot_S1024x25_S25x64_S1024x64_1_0_0_1_n_n.rhsIdx (ix2 r e) ((contrEquiv1 dot_S1024x25_S25x64_S1024x64_1_0_0_1_n_n 25 rfl rfl).symm k) = ix2 k e := funext fun a => Fin.ext (by
    match a with
    | ⟨0, _⟩ => exact (rhs_sv2_0 _ _).trans hk
    | ⟨1, _⟩ => exact rhs_sv2_1 _ _)
  rw [el, er]

/-! ## A row softmax of an `a × b` array

The rows' maxima and the rows' sums are taken by a reduction over the columns into a vector of `a` entries, which is
then viewed as a column (`a × 1`) and spread along the rows; the weight at `(r, c)` is the exponential of the entry less
its row's maximum, divided by the sum of those exponentials over the row. -/

section RowSoftmax
variable {a b : Nat}

/-- A column of row values spread along the rows: at `(r, c)` it is the value of row `r`. -/
theorem col_apply (m : FVec Ideal ⟨1, ![a]⟩ .f32) (hc : (⟨1, ![a]⟩ : Shape).ShapeCasts ⟨2, ![a, 1]⟩)
    (hb : (⟨2, ![a, 1]⟩ : Shape).Broadcasts ⟨2, ![a, b]⟩) (ha1 : a ≠ 1) (r : Fin a) (c : Fin b) :
    broadcastTo ⟨2, ![a, b]⟩ (shapeCast ⟨2, ![a, 1]⟩ m hc) hb (ix2 r c) = m (ix1 r) := by
  refine (broadcastTo_apply _ hb (ix2 r c) (ix2 r (0 : Fin 1)) (fun x => ?_)).trans ?_
  · match x with
    | ⟨0, _⟩ => show r.val = if a = 1 then 0 else r.val; rw [if_neg ha1]
    | ⟨1, _⟩ => show 0 = if (1 : Nat) = 1 then 0 else c.val; rw [if_pos rfl]
  · refine shapeCast_apply m hc _ _ ?_
    rw [Shape.rowMajor_val_one, Shape.rowMajor_val_two]
    show r.val = r.val * 1 + 0
    omega

/-- The index a reduction over the columns reads for row `r` at column `c` is `(r, c)`. -/
theorem lift_row (h : (⟨2, ![a, b]⟩ : Shape).Reduces [1] ⟨1, ![a]⟩) (r : Fin a) (c : Fin b) :
    h.lift (ix1 r) c = ix2 r c :=
  funext fun x => Fin.ext (by match x with | ⟨0, _⟩ => rfl | ⟨1, _⟩ => rfl)

/-- The maximum over the columns, at row `r`: the row's maximum folded from the word of −∞. -/
theorem rowMax_apply (sc : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction (F := Ideal) .maximumf [1] ⟨1, ![a]⟩ sc 0xFF800000#32 h (.inl rfl) hacc (ix1 r)
      = Cert.GuidedAttention.rowMax (fun c : Fin b => sc (ix2 r c)) := by
  refine (Ideal.multiReduction_maximumf_single sc 0xFF800000#32 h (.inl rfl) hacc (ix1 r)).trans ?_
  show (Finset.univ : Finset (Fin b)).fold max (Ideal.ofBits .f32 0xFF800000#32) (fun c => sc (h.lift (ix1 r) c)) = _
  unfold Cert.GuidedAttention.rowMax
  exact congrArg (fun f => (Finset.univ : Finset (Fin b)).fold max (Ideal.ofBits .f32 0xFF800000#32) f)
    (funext fun c => congrArg sc (lift_row h r c))

/-- The sum over the columns, at row `r`. -/
theorem rowSum_apply (ex : FVec Ideal ⟨2, ![a, b]⟩ .f32) (h : (⟨2, ![a, b]⟩ : Shape).Reduces [1] ⟨1, ![a]⟩)
    (hacc : (0x00000000#32 : BitVec 32) = FKind.add.neutral .f32 (.inl rfl)) (r : Fin a) :
    multiReduction (F := Ideal) .add [1] ⟨1, ![a]⟩ ex 0x00000000#32 h (.inl rfl) hacc (ix1 r) = ∑ c : Fin b, ex (ix2 r c) := by
  refine (Ideal.multiReduction_add_single ex 0x00000000#32 h (.inl rfl) hacc (ix1 r)).trans ?_
  show ∑ c : Fin b, ex (h.lift (ix1 r) c) = _
  exact Finset.sum_congr rfl fun c _ => congrArg ex (lift_row h r c)

/-- The exponential of an entry less its row's maximum, for an array whose row `r` is `x`. -/
theorem expShift_apply (sc : FVec Ideal ⟨2, ![a, b]⟩ .f32) (x : Fin b → EReal) (r : Fin a) (hx : ∀ c, sc (ix2 r c) = x c)
    (h : (⟨2, ![a, b]⟩ : Shape).Reduces [1] ⟨1, ![a]⟩) (hacc : (0xFF800000#32 : BitVec 32) = FKind.maximumf.neutral .f32 (.inl rfl))
    (hc : (⟨1, ![a]⟩ : Shape).ShapeCasts ⟨2, ![a, 1]⟩) (hb : (⟨2, ![a, 1]⟩ : Shape).Broadcasts ⟨2, ![a, b]⟩) (ha1 : a ≠ 1) (c : Fin b) :
    exp (subf sc (broadcastTo ⟨2, ![a, b]⟩ (shapeCast ⟨2, ![a, 1]⟩
        (multiReduction (F := Ideal) .maximumf [1] ⟨1, ![a]⟩ sc 0xFF800000#32 h (.inl rfl) hacc) hc) hb)) (ix2 r c)
      = Cert.GuidedAttention.expShift x c := by
  obtain rfl : (fun c' => sc (ix2 r c')) = x := funext hx
  exact congrArg (fun m => Ideal.exp (sc (ix2 r c) - m)) ((col_apply _ hc hb ha1 r c).trans (rowMax_apply sc h hacc r))

/-- The weight at `(r, c)`, for an array of exponentials whose row `r` is the shifted exponentials of `x`: the softmax
    weight of entry `c` of `x`. -/
theorem weight_apply (ex : FVec Ideal ⟨2, ![a, b]⟩ .f32) (x : Fin b → EReal) (r : Fin a)
    (hex : ∀ c, ex (ix2 r c) = Cert.GuidedAttention.expShift x c)
    (h : (⟨2, ![a, b]⟩ : Shape).Reduces [1] ⟨1, ![a]⟩) (hacc : (0x00000000#32 : BitVec 32) = FKind.add.neutral .f32 (.inl rfl))
    (hc : (⟨1, ![a]⟩ : Shape).ShapeCasts ⟨2, ![a, 1]⟩) (hb : (⟨2, ![a, 1]⟩ : Shape).Broadcasts ⟨2, ![a, b]⟩) (ha1 : a ≠ 1) (c : Fin b) :
    truncf .bf16 (divf ex (broadcastTo ⟨2, ![a, b]⟩ (shapeCast ⟨2, ![a, 1]⟩
        (multiReduction (F := Ideal) .add [1] ⟨1, ![a]⟩ ex 0x00000000#32 h (.inl rfl) hacc) hc) hb)) bitsLt_bf16_f32 (ix2 r c)
      = Cert.GuidedAttention.softmax x c := by
  refine (congrArg (fun m => Ideal.div (ex (ix2 r c)) m) ((col_apply _ hc hb ha1 r c).trans (rowSum_apply ex h hacc r))).trans ?_
  unfold Cert.GuidedAttention.softmax
  rw [hex c, Finset.sum_congr rfl fun c' _ => hex c']

end RowSoftmax

/-! ## The two stages and the chunk's block -/

/-- Stage one at summary row `g`, lane `e`. -/
theorem summaryRows_apply (k v : FVec Ideal S4096x64 .f32) (gt : FVec Ideal S25x64 .f32) (g : Fin 25) (e : Fin 64) :
    summaryRows k v gt (ix2 g e)
      = Cert.GuidedAttention.summary (fun l e' => k (ix2 l e')) (fun l e' => v (ix2 l e')) (fun g' e' => gt (ix2 g' e')) g e := by
  have hsc : ∀ l : Fin 4096,
      matmul dot_S25x64_S4096x64_S25x4096_1_1_0_0_n_n none
          (truncf .bf16 (mulf gt (broadcast S25x64 (Scalar.ofBits (F := Ideal) .f32 0x3E800000#32))) bitsLt_bf16_f32)
          (truncf .bf16 k bitsLt_bf16_f32) (constant (F := Ideal) S25x4096 .f32 0x00000000#32) (ix2 g l)
        = Cert.GuidedAttention.keyScore (fun l e' => k (ix2 l e')) (fun g' e' => gt (ix2 g' e')) g l :=
    fun l => (matmul_sc1_apply _ _ g l).trans (Finset.sum_congr rfl fun _ _ => rfl)
  unfold summaryRows Cert.GuidedAttention.summary
  dsimp only
  rw [truncf_apply, matmul_sv1_apply]
  refine Finset.sum_congr rfl fun l _ => ?_
  refine congrArg₂ (· * ·) ?_ rfl
  exact weight_apply _ _ g
    (fun c => expShift_apply _ _ g hsc reduces_S25x4096_S25 rfl shapeCasts_S25_S25x1 broadcasts_S25x1_S25x4096 (by decide) c)
    reduces_S25x4096_S25 rfl shapeCasts_S25_S25x1 broadcasts_S25x1_S25x4096 (by decide) l

/-- The guidance rows are passed on as they are. -/
theorem keyRows_apply (gt : FVec Ideal S25x64 .f32) (g : Fin 25) (e : Fin 64) : keyRows gt (ix2 g e) = gt (ix2 g e) := rfl

/-- Stage two at query row `r` of the chunk, lane `e`. -/
theorem attendRows_apply (q : FVec Ideal S1024x64 .f32) (gtb gv : FVec Ideal S25x64 .bf16) (r : Fin 1024) (e : Fin 64) :
    attendRows q gtb gv (ix2 r e)
      = Cert.GuidedAttention.attend (fun e' => q (ix2 r e')) (fun g e' => gtb (ix2 g e')) (fun g e' => gv (ix2 g e')) e := by
  have hsc : ∀ g : Fin 25,
      matmul dot_S1024x64_S25x64_S1024x25_1_1_0_0_n_n none
          (truncf .bf16 (mulf q (broadcast S1024x64 (Scalar.ofBits (F := Ideal) .f32 0x3E800000#32))) bitsLt_bf16_f32)
          gtb (constant (F := Ideal) S1024x25 .f32 0x00000000#32) (ix2 r g)
        = Cert.GuidedAttention.tokenScore (fun e' => q (ix2 r e')) (fun g e' => gtb (ix2 g e')) g :=
    fun g => (matmul_sc2_apply _ _ r g).trans (Finset.sum_congr rfl fun _ _ => rfl)
  unfold attendRows Cert.GuidedAttention.attend
  dsimp only
  rw [matmul_sv2_apply]
  refine Finset.sum_congr rfl fun g _ => ?_
  refine congrArg₂ (· * ·) ?_ rfl
  exact weight_apply _ _ r
    (fun c => expShift_apply _ _ r hsc reduces_S1024x25_S1024 rfl shapeCasts_S1024_S1024x1 broadcasts_S1024x1_S1024x25 (by decide) c)
    reduces_S1024x25_S1024 rfl shapeCasts_S1024_S1024x1 broadcasts_S1024x1_S1024x25 (by decide) g

/-- A chunk's block at row `r`, lane `64·hh + e`, is head `hh`'s result at `(r, e)`. -/
theorem chunkRows_apply (a : Fin 4 → FVec Ideal S1024x64 .f32) (r : Fin 1024) (hh : Fin 4) (e : Fin 64) (lane : Fin 256)
    (hl : lane.val = 64 * hh.val + e.val) :
    chunkRows (a 0) (a 1) (a 2) (a 3) (ix3 (0 : Fin 1) r lane) = a hh (ix2 r e) := by
  unfold chunkRows
  rw [shapeCast_ab_1ab_apply]
  have he := e.isLt
  have hh4 := hh.isLt
  exact concatenate_ofFn_apply (t := S1024x256) (s₁ := S1024x64) (1 : Fin S1024x256.rank) (N := 4) a
    concatenates_S1024x64_S1024x64_S1024x64_S1024x64_S1024x256_d1 rfl 64 rfl (ix2 r lane) hh
    (by show lane.val / 64 = hh.val; omega) (ix2 r e) (by show e.val = lane.val % 64; omega)
    (fun x hx => by match x with | ⟨0, _⟩ => rfl | ⟨1, _⟩ => exact absurd rfl hx)

end Cert.KernelIdeal.Heads

end
-- ==== Proof.Block.lean ====
/-
  One grid point's output block as ONE function of the point's four input blocks, and each store as its restriction.

  At a grid point the staged blocks are `x0` (query rows), `x1` (key rows), `x2` (value rows), each 1 × 4096 × 256, and `x3`
  (guidance rows, 1 × 25 × 256); lanes `lane0 … lane0 + 63` of every block belong to one head. `headAt … l lane0 e` is
  the guided-attention value of query row `l` for that head at entry `e`: the row attended over the head's guidance rows
  and the summaries of the head's key and value rows. The block function `blockFn` reads, at `(0, l, n)`, the head
  `n / 64` at entry `n % 64`.
  A load through a unit-stride rectangle reads the block at the rectangle's offsets plus the local coordinates
  (`ld_unit3`); so one head's result for the chunk of rows `row0 …` is `headAt` at row `row0 + r` (`headRows_apply`), and a
  store's value — four heads side by side — is `blockFn` at `(0, row0 + r, n)` (`chunk_apply`).
-/
import proofs.«415987_j38912403701947_3_alg».proof.Proof.Pieces
import proofs.«415987_j38912403701947_3_alg».proof.Proof.HeadsValue
import proofs.«415987_j38912403701947_3_alg».proof.Proof.GuidedAttention
import Idealize.ShloMosaic.Lib.Pipeline.Value
import Idealize.ShloMosaic.Lib.ValueLayout
import Idealize.ShloMosaic.Lib.ValueIdx

noncomputable section

namespace Cert.KernelIdeal.Block

open Idealize.ShloMosaic Idealize.ShloMosaic.ValueIdx Cert.KernelIdeal Cert.KernelIdeal.Gen Cert.KernelIdeal.Heads
  Cert.KernelIdeal.Pieces Cert.GuidedAttention

/-- A load through a unit-stride rectangle of a rank-3 block, at local coordinates `(i, j, k)`, reads the block at the
    index `y` whose coordinates are the offsets plus `i`, `j`, `k`. -/
theorem ld_unit3 {Val : EltTy → Type} {e : EltTy} {a0 a1 a2 n0 n1 n2 : Nat} (X : (⟨3, ![a0, a1, a2]⟩ : Shape).Idx → Val e)
    (o0 o1 o2 : Nat)
    (inb : ∀ a, (![o0, o1, o2] : Fin 3 → Nat) a + (![n0, n1, n2] : Fin 3 → Nat) a ≤ (⟨3, ![a0, a1, a2]⟩ : Shape).size a)
    (i : Fin n0) (j : Fin n1) (k : Fin n2) (y : (⟨3, ![a0, a1, a2]⟩ : Shape).Idx)
    (h0 : (y 0).val = o0 + i.val) (h1 : (y 1).val = o1 + j.val) (h2 : (y 2).val = o2 + k.val) :
    View.ld X (Rect.unit (s := ⟨3, ![a0, a1, a2]⟩) ![o0, o1, o2] ![n0, n1, n2] inb) (ix3 i j k) = X y := by
  show X ((Rect.unit (s := ⟨3, ![a0, a1, a2]⟩) ![o0, o1, o2] ![n0, n1, n2] inb).idx (ix3 i j k)) = X y
  refine congrArg X (funext fun a => Fin.ext ?_)
  match a with
  | ⟨0, _⟩ => show o0 + 1 * i.val = (y 0).val; omega
  | ⟨1, _⟩ => show o1 + 1 * j.val = (y 1).val; omega
  | ⟨2, _⟩ => show o2 + 1 * k.val = (y 2).val; omega

/-- Lane `lane0 + e` of a 256-lane block (total: reduced modulo 256, which changes nothing when `lane0 + 64 ≤ 256`). -/
abbrev laneAt (lane0 : Nat) (e : Fin 64) : Fin 256 := ⟨(lane0 + e.val) % 256, Nat.mod_lt _ (by decide)⟩

theorem laneAt_val (lane0 : Nat) (hl : lane0 + 64 ≤ 256) (e : Fin 64) : (laneAt lane0 e).val = lane0 + e.val :=
  Nat.mod_eq_of_lt (by have := e.isLt; omega)

variable (x0 x1 x2 : Vec Ideal S1x4096x256 .f32) (x3 : Vec Ideal S1x25x256 .f32)

/-- The guided-attention value of query row `l`, for the head on lanes `lane0 …`, at entry `e`. -/
def headAt (l : Fin 4096) (lane0 : Nat) (e : Fin 64) : EReal :=
  attend (fun e' => x0 (ix3 (0 : Fin 1) l (laneAt lane0 e'))) (fun g e' => x3 (ix3 (0 : Fin 1) g (laneAt lane0 e')))
    (summary (fun l' e' => x1 (ix3 (0 : Fin 1) l' (laneAt lane0 e'))) (fun l' e' => x2 (ix3 (0 : Fin 1) l' (laneAt lane0 e')))
      (fun g e' => x3 (ix3 (0 : Fin 1) g (laneAt lane0 e')))) e

/-- The output block: at `(0, l, n)` the head `n / 64` at entry `n % 64`. -/
def blockFn : S1x4096x256.Idx → EReal := fun y =>
  headAt x0 x1 x2 x3 ⟨(y 1).val, (y 1).isLt⟩ (64 * ((y 2).val / 64)) ⟨(y 2).val % 64, Nat.mod_lt _ (by decide)⟩

/-- One head's result for the chunk of query rows `row0 …`, at row `r` of the chunk and entry `e`. -/
theorem headRows_apply (row0 lane0 : Nat) (hl : lane0 + 64 ≤ 256) (hr : row0 + 1024 ≤ 4096)
    (inbk : ∀ a, (![0, 0, lane0] : Fin 3 → Nat) a + (![1, 4096, 64] : Fin 3 → Nat) a ≤ S1x4096x256.size a)
    (inbg : ∀ a, (![0, 0, lane0] : Fin 3 → Nat) a + (![1, 25, 64] : Fin 3 → Nat) a ≤ S1x25x256.size a)
    (inbq : ∀ a, (![0, row0, lane0] : Fin 3 → Nat) a + (![1, 1024, 64] : Fin 3 → Nat) a ≤ S1x4096x256.size a)
    (r : Fin 1024) (e : Fin 64) :
    headRows (F := Ideal) (View.ld (Val := Elt Ideal) x1 (Rect.unit (s := S1x4096x256) ![0, 0, lane0] ![1, 4096, 64] inbk))
        (View.ld (Val := Elt Ideal) x2 (Rect.unit (s := S1x4096x256) ![0, 0, lane0] ![1, 4096, 64] inbk))
        (View.ld (Val := Elt Ideal) x3 (Rect.unit (s := S1x25x256) ![0, 0, lane0] ![1, 25, 64] inbg))
        (View.ld (Val := Elt Ideal) x0 (Rect.unit (s := S1x4096x256) ![0, row0, lane0] ![1, 1024, 64] inbq)) (ix2 r e)
      = headAt x0 x1 x2 x3 ⟨row0 + r.val, by have := r.isLt; omega⟩ lane0 e := by
  have hq : ∀ e' : Fin 64,
      shapeCast S1024x64 (View.ld (Val := Elt Ideal) x0 (Rect.unit (s := S1x4096x256) ![0, row0, lane0] ![1, 1024, 64] inbq))
          shapeCasts_S1x1024x64_S1024x64 (ix2 r e')
        = x0 (ix3 (0 : Fin 1) ⟨row0 + r.val, by have := r.isLt; omega⟩ (laneAt lane0 e')) := fun e' =>
    (shapeCast_1ab_ab_apply (View.ld (Val := Elt Ideal) x0 (Rect.unit (s := S1x4096x256) ![0, row0, lane0] ![1, 1024, 64] inbq)) _ r e').trans
      (ld_unit3 x0 0 row0 lane0 inbq (0 : Fin 1) r e'
        (ix3 (0 : Fin 1) ⟨row0 + r.val, by have := r.isLt; omega⟩ (laneAt lane0 e')) rfl rfl (laneAt_val lane0 hl e'))
  have hk : ∀ (l' : Fin 4096) (e' : Fin 64),
      shapeCast S4096x64 (View.ld (Val := Elt Ideal) x1 (Rect.unit (s := S1x4096x256) ![0, 0, lane0] ![1, 4096, 64] inbk))
          shapeCasts_S1x4096x64_S4096x64 (ix2 l' e')
        = x1 (ix3 (0 : Fin 1) l' (laneAt lane0 e')) := fun l' e' =>
    (shapeCast_1ab_ab_apply (View.ld (Val := Elt Ideal) x1 (Rect.unit (s := S1x4096x256) ![0, 0, lane0] ![1, 4096, 64] inbk)) _ l' e').trans
      (ld_unit3 x1 0 0 lane0 inbk (0 : Fin 1) l' e' (ix3 (0 : Fin 1) l' (laneAt lane0 e')) rfl (Nat.zero_add _).symm
        (laneAt_val lane0 hl e'))
  have hv : ∀ (l' : Fin 4096) (e' : Fin 64),
      shapeCast S4096x64 (View.ld (Val := Elt Ideal) x2 (Rect.unit (s := S1x4096x256) ![0, 0, lane0] ![1, 4096, 64] inbk))
          shapeCasts_S1x4096x64_S4096x64 (ix2 l' e')
        = x2 (ix3 (0 : Fin 1) l' (laneAt lane0 e')) := fun l' e' =>
    (shapeCast_1ab_ab_apply (View.ld (Val := Elt Ideal) x2 (Rect.unit (s := S1x4096x256) ![0, 0, lane0] ![1, 4096, 64] inbk)) _ l' e').trans
      (ld_unit3 x2 0 0 lane0 inbk (0 : Fin 1) l' e' (ix3 (0 : Fin 1) l' (laneAt lane0 e')) rfl (Nat.zero_add _).symm
        (laneAt_val lane0 hl e'))
  have hg : ∀ (g : Fin 25) (e' : Fin 64),
      shapeCast S25x64 (View.ld (Val := Elt Ideal) x3 (Rect.unit (s := S1x25x256) ![0, 0, lane0] ![1, 25, 64] inbg))
          shapeCasts_S1x25x64_S25x64 (ix2 g e')
        = x3 (ix3 (0 : Fin 1) g (laneAt lane0 e')) := fun g e' =>
    (shapeCast_1ab_ab_apply (View.ld (Val := Elt Ideal) x3 (Rect.unit (s := S1x25x256) ![0, 0, lane0] ![1, 25, 64] inbg)) _ g e').trans
      (ld_unit3 x3 0 0 lane0 inbg (0 : Fin 1) g e' (ix3 (0 : Fin 1) g (laneAt lane0 e')) rfl (Nat.zero_add _).symm
        (laneAt_val lane0 hl e'))
  unfold headRows
  rw [attendRows_apply]
  simp only [keyRows_apply, summaryRows_apply, hq, hk, hv, hg]
  rfl

/-- `headAt` depends on its row, lane offset and entry only through their values. -/
theorem headAt_congr {l l' : Fin 4096} {a a' : Nat} {e e' : Fin 64} (hl : l.val = l'.val) (ha : a = a') (he : e.val = e'.val) :
    headAt x0 x1 x2 x3 l a e = headAt x0 x1 x2 x3 l' a' e' := by
  obtain rfl := Fin.ext hl
  subst ha
  obtain rfl := Fin.ext he
  rfl

/-- A store's value for the chunk of query rows `row0 …`: the four heads' results side by side are the block function at
    the store's rectangle — rows `row0 … row0 + 1023`, all 256 lanes. -/
theorem chunk_apply (row0 : Nat) (hr : row0 + 1024 ≤ 4096)
    (inbk0 : ∀ a, (![0, 0, 0] : Fin 3 → Nat) a + (![1, 4096, 64] : Fin 3 → Nat) a ≤ S1x4096x256.size a)
    (inbk1 : ∀ a, (![0, 0, 64] : Fin 3 → Nat) a + (![1, 4096, 64] : Fin 3 → Nat) a ≤ S1x4096x256.size a)
    (inbk2 : ∀ a, (![0, 0, 128] : Fin 3 → Nat) a + (![1, 4096, 64] : Fin 3 → Nat) a ≤ S1x4096x256.size a)
    (inbk3 : ∀ a, (![0, 0, 192] : Fin 3 → Nat) a + (![1, 4096, 64] : Fin 3 → Nat) a ≤ S1x4096x256.size a)
    (inbg0 : ∀ a, (![0, 0, 0] : Fin 3 → Nat) a + (![1, 25, 64] : Fin 3 → Nat) a ≤ S1x25x256.size a)
    (inbg1 : ∀ a, (![0, 0, 64] : Fin 3 → Nat) a + (![1, 25, 64] : Fin 3 → Nat) a ≤ S1x25x256.size a)
    (inbg2 : ∀ a, (![0, 0, 128] : Fin 3 → Nat) a + (![1, 25, 64] : Fin 3 → Nat) a ≤ S1x25x256.size a)
    (inbg3 : ∀ a, (![0, 0, 192] : Fin 3 → Nat) a + (![1, 25, 64] : Fin 3 → Nat) a ≤ S1x25x256.size a)
    (inbq0 : ∀ a, (![0, row0, 0] : Fin 3 → Nat) a + (![1, 1024, 64] : Fin 3 → Nat) a ≤ S1x4096x256.size a)
    (inbq1 : ∀ a, (![0, row0, 64] : Fin 3 → Nat) a + (![1, 1024, 64] : Fin 3 → Nat) a ≤ S1x4096x256.size a)
    (inbq2 : ∀ a, (![0, row0, 128] : Fin 3 → Nat) a + (![1, 1024, 64] : Fin 3 → Nat) a ≤ S1x4096x256.size a)
    (inbq3 : ∀ a, (![0, row0, 192] : Fin 3 → Nat) a + (![1, 1024, 64] : Fin 3 → Nat) a ≤ S1x4096x256.size a)
    (inbo : ∀ a, (![0, row0, 0] : Fin 3 → Nat) a + (![1, 1024, 256] : Fin 3 → Nat) a ≤ S1x4096x256.size a)
    (x : (Rect.unit (s := S1x4096x256) ![0, row0, 0] ![1, 1024, 256] inbo).shape.Idx) :
    chunkRows (F := Ideal)
        (headRows (View.ld (Val := Elt Ideal) x1 (Rect.unit (s := S1x4096x256) ![0, 0, 0] ![1, 4096, 64] inbk0))
          (View.ld (Val := Elt Ideal) x2 (Rect.unit (s := S1x4096x256) ![0, 0, 0] ![1, 4096, 64] inbk0))
          (View.ld (Val := Elt Ideal) x3 (Rect.unit (s := S1x25x256) ![0, 0, 0] ![1, 25, 64] inbg0))
          (View.ld (Val := Elt Ideal) x0 (Rect.unit (s := S1x4096x256) ![0, row0, 0] ![1, 1024, 64] inbq0)))
        (headRows (View.ld (Val := Elt Ideal) x1 (Rect.unit (s := S1x4096x256) ![0, 0, 64] ![1, 4096, 64] inbk1))
          (View.ld (Val := Elt Ideal) x2 (Rect.unit (s := S1x4096x256) ![0, 0, 64] ![1, 4096, 64] inbk1))
          (View.ld (Val := Elt Ideal) x3 (Rect.unit (s := S1x25x256) ![0, 0, 64] ![1, 25, 64] inbg1))
          (View.ld (Val := Elt Ideal) x0 (Rect.unit (s := S1x4096x256) ![0, row0, 64] ![1, 1024, 64] inbq1)))
        (headRows (View.ld (Val := Elt Ideal) x1 (Rect.unit (s := S1x4096x256) ![0, 0, 128] ![1, 4096, 64] inbk2))
          (View.ld (Val := Elt Ideal) x2 (Rect.unit (s := S1x4096x256) ![0, 0, 128] ![1, 4096, 64] inbk2))
          (View.ld (Val := Elt Ideal) x3 (Rect.unit (s := S1x25x256) ![0, 0, 128] ![1, 25, 64] inbg2))
          (View.ld (Val := Elt Ideal) x0 (Rect.unit (s := S1x4096x256) ![0, row0, 128] ![1, 1024, 64] inbq2)))
        (headRows (View.ld (Val := Elt Ideal) x1 (Rect.unit (s := S1x4096x256) ![0, 0, 192] ![1, 4096, 64] inbk3))
          (View.ld (Val := Elt Ideal) x2 (Rect.unit (s := S1x4096x256) ![0, 0, 192] ![1, 4096, 64] inbk3))
          (View.ld (Val := Elt Ideal) x3 (Rect.unit (s := S1x25x256) ![0, 0, 192] ![1, 25, 64] inbg3))
          (View.ld (Val := Elt Ideal) x0 (Rect.unit (s := S1x4096x256) ![0, row0, 192] ![1, 1024, 64] inbq3)))
        x
      = blockFn x0 x1 x2 x3 ((Rect.unit (s := S1x4096x256) ![0, row0, 0] ![1, 1024, 256] inbo).emb x) := by
  obtain ⟨u, r, n, rfl⟩ : ∃ (u : Fin 1) (r : Fin 1024) (n : Fin 256), x = ix3 u r n := ⟨x 0, x 1, x 2, eq_ix3 x⟩
  obtain rfl : u = 0 := Subsingleton.elim _ _
  have hn : n.val < 256 := n.isLt
  obtain ⟨hh, e, hl⟩ : ∃ (hh : Fin 4) (e : Fin 64), n.val = 64 * hh.val + e.val :=
    ⟨⟨n.val / 64, by omega⟩, ⟨n.val % 64, Nat.mod_lt _ (by decide)⟩, (Nat.div_add_mod n.val 64).symm⟩
  have he : e.val < 64 := e.isLt
  have hr' : r.val < 1024 := r.isLt
  refine (chunkRows_apply (fun j : Fin 4 => match j with
      | ⟨0, _⟩ => headRows (View.ld (Val := Elt Ideal) x1 (Rect.unit (s := S1x4096x256) ![0, 0, 0] ![1, 4096, 64] inbk0))
          (View.ld (Val := Elt Ideal) x2 (Rect.unit (s := S1x4096x256) ![0, 0, 0] ![1, 4096, 64] inbk0))
          (View.ld (Val := Elt Ideal) x3 (Rect.unit (s := S1x25x256) ![0, 0, 0] ![1, 25, 64] inbg0))
          (View.ld (Val := Elt Ideal) x0 (Rect.unit (s := S1x4096x256) ![0, row0, 0] ![1, 1024, 64] inbq0))
      | ⟨1, _⟩ => headRows (View.ld (Val := Elt Ideal) x1 (Rect.unit (s := S1x4096x256) ![0, 0, 64] ![1, 4096, 64] inbk1))
          (View.ld (Val := Elt Ideal) x2 (Rect.unit (s := S1x4096x256) ![0, 0, 64] ![1, 4096, 64] inbk1))
          (View.ld (Val := Elt Ideal) x3 (Rect.unit (s := S1x25x256) ![0, 0, 64] ![1, 25, 64] inbg1))
          (View.ld (Val := Elt Ideal) x0 (Rect.unit (s := S1x4096x256) ![0, row0, 64] ![1, 1024, 64] inbq1))
      | ⟨2, _⟩ => headRows (View.ld (Val := Elt Ideal) x1 (Rect.unit (s := S1x4096x256) ![0, 0, 128] ![1, 4096, 64] inbk2))
          (View.ld (Val := Elt Ideal) x2 (Rect.unit (s := S1x4096x256) ![0, 0, 128] ![1, 4096, 64] inbk2))
          (View.ld (Val := Elt Ideal) x3 (Rect.unit (s := S1x25x256) ![0, 0, 128] ![1, 25, 64] inbg2))
          (View.ld (Val := Elt Ideal) x0 (Rect.unit (s := S1x4096x256) ![0, row0, 128] ![1, 1024, 64] inbq2))
      | ⟨3, _⟩ => headRows (View.ld (Val := Elt Ideal) x1 (Rect.unit (s := S1x4096x256) ![0, 0, 192] ![1, 4096, 64] inbk3))
          (View.ld (Val := Elt Ideal) x2 (Rect.unit (s := S1x4096x256) ![0, 0, 192] ![1, 4096, 64] inbk3))
          (View.ld (Val := Elt Ideal) x3 (Rect.unit (s := S1x25x256) ![0, 0, 192] ![1, 25, 64] inbg3))
          (View.ld (Val := Elt Ideal) x0 (Rect.unit (s := S1x4096x256) ![0, row0, 192] ![1, 1024, 64] inbq3)))
      r hh e n hl).trans ?_
  unfold blockFn
  match hh, hl with
  | ⟨0, _⟩, hl =>
    have hl' : n.val = 64 * 0 + e.val := hl
    refine (headRows_apply x0 x1 x2 x3 row0 0 (by omega) hr inbk0 inbg0 inbq0 r e).trans ?_
    exact headAt_congr x0 x1 x2 x3 (by show row0 + r.val = row0 + 1 * r.val; omega)
      (by show 0 = 64 * ((0 + 1 * n.val) / 64); omega) (by show e.val = (0 + 1 * n.val) % 64; omega)
  | ⟨1, _⟩, hl =>
    have hl' : n.val = 64 * 1 + e.val := hl
    refine (headRows_apply x0 x1 x2 x3 row0 64 (by omega) hr inbk1 inbg1 inbq1 r e).trans ?_
    exact headAt_congr x0 x1 x2 x3 (by show row0 + r.val = row0 + 1 * r.val; omega)
      (by show 64 = 64 * ((0 + 1 * n.val) / 64); omega) (by show e.val = (0 + 1 * n.val) % 64; omega)
  | ⟨2, _⟩, hl =>
    have hl' : n.val = 64 * 2 + e.val := hl
    refine (headRows_apply x0 x1 x2 x3 row0 128 (by omega) hr inbk2 inbg2 inbq2 r e).trans ?_
    exact headAt_congr x0 x1 x2 x3 (by show row0 + r.val = row0 + 1 * r.val; omega)
      (by show 128 = 64 * ((0 + 1 * n.val) / 64); omega) (by show e.val = (0 + 1 * n.val) % 64; omega)
  | ⟨3, _⟩, hl =>
    have hl' : n.val = 64 * 3 + e.val := hl
    refine (headRows_apply x0 x1 x2 x3 row0 192 (by omega) hr inbk3 inbg3 inbq3 r e).trans ?_
    exact headAt_congr x0 x1 x2 x3 (by show row0 + r.val = row0 + 1 * r.val; omega)
      (by show 192 = 64 * ((0 + 1 * n.val) / 64); omega) (by show e.val = (0 + 1 * n.val) % 64; omega)

end Cert.KernelIdeal.Block

end
-- ==== Proof.Flat.lean ====
/-
  The guided-attention result on the arrays as the kernel's region sees them: heads laid along the last axis.

  The region's arrays are the arguments with the head axis (16) and the entry axis (64) merged into one axis of 1024: entry
  `e` of head `h` sits at `64·h + e`. `flatAt Q K W G b l lane0 e` is the guided-attention value of query row `(b, l)` for the
  head on positions `lane0 … lane0 + 63`, at entry `e`; `flatFn` reads, at `(b, l, n)`, the head `n / 64` at entry `n % 64`.
  A row-major reshape keeps every element's position in the row-major order, and `(b, l, h, e)` of `[4, 4096, 16, 64]` and
  `(b, l, 64·h + e)` of `[4, 4096, 1024]` have the same position; so on the merged arguments `flatFn` at `(b, l, 64·h + e)` is
  the specification's `result` at `(b, l, h, e)` (`flatFn_reshape`).
-/
import proofs.«415987_j38912403701947_3_alg».proof.Proof.Gen.KernelIdeal
import proofs.«415987_j38912403701947_3_alg».proof.Proof.GuidedAttention
import Idealize.ShloMosaic.Lib.Pipeline.Value
import Idealize.ShloMosaic.Lib.ValueIdx

noncomputable section

namespace Cert.KernelIdeal.Flat

open Idealize.ShloMosaic Idealize.ShloMosaic.ValueIdx Cert.KernelIdeal Cert.KernelIdeal.Gen Cert.GuidedAttention

/-- Position `lane0 + e` of the merged axis (total: reduced modulo 1024, which changes nothing when `lane0 + 64 ≤ 1024`). -/
abbrev flatLane (lane0 : Nat) (e : Fin 64) : Fin 1024 := ⟨(lane0 + e.val) % 1024, Nat.mod_lt _ (by decide)⟩

theorem flatLane_val (lane0 : Nat) (hl : lane0 + 64 ≤ 1024) (e : Fin 64) : (flatLane lane0 e).val = lane0 + e.val :=
  Nat.mod_eq_of_lt (by have := e.isLt; omega)

variable (Q K W : Vec Ideal S4x4096x1024 .f32) (G : Vec Ideal S4x25x1024 .f32)

/-- The guided-attention value of query row `(b, l)`, for the head on positions `lane0 …`, at entry `e`. -/
def flatAt (b : Fin 4) (l : Fin 4096) (lane0 : Nat) (e : Fin 64) : EReal :=
  attend (fun e' => Q (ix3 b l (flatLane lane0 e'))) (fun g e' => G (ix3 b g (flatLane lane0 e')))
    (summary (fun l' e' => K (ix3 b l' (flatLane lane0 e'))) (fun l' e' => W (ix3 b l' (flatLane lane0 e')))
      (fun g e' => G (ix3 b g (flatLane lane0 e')))) e

/-- The result on the merged layout: at `(b, l, n)` the head `n / 64` at entry `n % 64`. -/
def flatFn : S4x4096x1024.Idx → EReal := fun i =>
  flatAt Q K W G ⟨(i 0).val, (i 0).isLt⟩ ⟨(i 1).val, (i 1).isLt⟩ (64 * ((i 2).val / 64)) ⟨(i 2).val % 64, Nat.mod_lt _ (by decide)⟩

/-- `flatAt` depends on its coordinates only through their values. -/
theorem flatAt_congr {b b' : Fin 4} {l l' : Fin 4096} {a a' : Nat} {e e' : Fin 64} (hb : b.val = b'.val) (hl : l.val = l'.val)
    (ha : a = a') (he : e.val = e'.val) : flatAt Q K W G b l a e = flatAt Q K W G b' l' a' e' := by
  obtain rfl := Fin.ext hb
  obtain rfl := Fin.ext hl
  subst ha
  obtain rfl := Fin.ext he
  rfl

/-- A `[4, n, 16, 64]` array merged to `[4, n, 1024]` reads, at `(b, l, 64·h + e)`, the operand at `(b, l, h, e)`. -/
theorem merged_apply {n : Nat} (x : (⟨4, ![4, n, 16, 64]⟩ : Shape).Idx → EReal)
    (hc : (⟨4, ![4, n, 16, 64]⟩ : Shape).ShapeCasts ⟨3, ![4, n, 1024]⟩) (b : Fin 4) (l : Fin n) (h : Fin 16) (e : Fin 64)
    (p : Fin 1024) (hp : p.val = 64 * h.val + e.val) :
    shapeCast ⟨3, ![4, n, 1024]⟩ x hc (ix3 b l p) = x (ix4 b l h e) :=
  shapeCast_apply x hc _ _ (by
    rw [Shape.rowMajor_val_four, Shape.rowMajor_val_three]
    show ((b.val * n + l.val) * 16 + h.val) * 64 + e.val = (b.val * n + l.val) * 1024 + p.val
    rw [hp]; ring)

/-- On the merged arguments the merged-layout result at `(b, l, 64·h + e)` is the specification's result at `(b, l, h, e)`. -/
theorem flatFn_reshape (q k v : FVec Ideal S4x4096x16x64 .f32) (gt : FVec Ideal S4x25x16x64 .f32)
    (b : Fin 4) (l : Fin 4096) (h : Fin 16) (e : Fin 64) (p : Fin 1024) (hp : p.val = 64 * h.val + e.val) :
    flatFn (shapeCast S4x4096x1024 q shapeCasts_S4x4096x16x64_S4x4096x1024)
        (shapeCast S4x4096x1024 k shapeCasts_S4x4096x16x64_S4x4096x1024)
        (shapeCast S4x4096x1024 v shapeCasts_S4x4096x16x64_S4x4096x1024)
        (shapeCast S4x25x1024 gt shapeCasts_S4x25x16x64_S4x25x1024) (ix3 b l p)
      = result q k v gt (ix4 b l h e) := by
  have hh : h.val < 16 := h.isLt
  have he : e.val < 64 := e.isLt
  have hpos : ∀ e' : Fin 64, (flatLane (64 * (p.val / 64)) e').val = 64 * h.val + e'.val := fun e' => by
    rw [flatLane_val _ (by omega) e']; omega
  have hq : ∀ (l' : Fin 4096) (e' : Fin 64),
      shapeCast S4x4096x1024 q shapeCasts_S4x4096x16x64_S4x4096x1024 (ix3 b l' (flatLane (64 * (p.val / 64)) e')) = q (ix4 b l' h e') :=
    fun l' e' => merged_apply q _ b l' h e' _ (hpos e')
  have hk : ∀ (l' : Fin 4096) (e' : Fin 64),
      shapeCast S4x4096x1024 k shapeCasts_S4x4096x16x64_S4x4096x1024 (ix3 b l' (flatLane (64 * (p.val / 64)) e')) = k (ix4 b l' h e') :=
    fun l' e' => merged_apply k _ b l' h e' _ (hpos e')
  have hv : ∀ (l' : Fin 4096) (e' : Fin 64),
      shapeCast S4x4096x1024 v shapeCasts_S4x4096x16x64_S4x4096x1024 (ix3 b l' (flatLane (64 * (p.val / 64)) e')) = v (ix4 b l' h e') :=
    fun l' e' => merged_apply v _ b l' h e' _ (hpos e')
  have hg : ∀ (g : Fin 25) (e' : Fin 64),
      shapeCast S4x25x1024 gt shapeCasts_S4x25x16x64_S4x25x1024 (ix3 b g (flatLane (64 * (p.val / 64)) e')) = gt (ix4 b g h e') :=
    fun g e' => merged_apply gt _ b g h e' _ (hpos e')
  rw [result_ix4]
  unfold flatFn
  refine (flatAt_congr _ _ _ _ (b' := b) (l' := l) (a' := 64 * (p.val / 64)) (e' := e) rfl rfl rfl
    (by show p.val % 64 = e.val; omega)).trans ?_
  unfold flatAt
  simp only [hq, hk, hv, hg]

end Cert.KernelIdeal.Flat

end
-- ==== Proof.Out.lean ====
/-
  What a grid point leaves in the output's staging buffer, and what the output array holds after the run.

  The body writes the output block in four stores of 1024 rows, which tile it; what the buffer then holds is, at every
  index, the payload of the store whose rows hold the index. Each store's payload is the restriction of ONE function of
  the block index — `blockFn` of the point's four input blocks — to the store's rows, so the buffer holds `blockFn`.
-/
import proofs.«415987_j38912403701947_3_alg».proof.Proof.Gen.KernelIdeal.Frame
import proofs.«415987_j38912403701947_3_alg».proof.Proof.Block
import proofs.«415987_j38912403701947_3_alg».proof.Proof.Flat

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Heads Cert.KernelIdeal.Pieces Cert.KernelIdeal.Block Cert.KernelIdeal.Flat

/-- On any staging memrefs holding the blocks `x0 … x3`, the four stores leave the block function of those blocks. -/
theorem out_eq (c : Dev nD) (i : grid0.Coords) (arg2 : Memref sig .tc .vmem S1x4096x256 .f32) (harg2 : arg2.IsWhole)
    (arg3 : Memref sig .tc .vmem S1x4096x256 .f32) (harg3 : arg3.IsWhole) (arg4 : Memref sig .tc .vmem S1x4096x256 .f32)
    (harg4 : arg4.IsWhole) (arg5 : Memref sig .tc .vmem S1x25x256 .f32) (harg5 : arg5.IsWhole)
    (arg6 : Memref sig .tc .vmem S1x4096x256 .f32) (harg6 : arg6.IsWhole)
    (x0 x1 x2 : Vec Ideal S1x4096x256 .f32) (x3 : Vec Ideal S1x25x256 .f32) :
    out0_A_4 (F := Ideal) c i arg2 harg2 arg3 harg3 arg4 harg4 arg5 harg5 arg6 harg6 x0 x1 x2 x3 = blockFn x0 x1 x2 x3 := by
  unfold out0_A_4
  rw [View.read_writes_eq_canon _ _ _ (cover0_A_4 c i arg2 harg2 arg3 harg3 arg4 harg4 arg5 harg5 arg6 harg6 x0 x1 x2 x3)]
  funext y
  refine View.canon_apply_of_pieces (blockFn x0 x1 x2 x3) _ ?_ y
    (cover0_A_4 c i arg2 harg2 arg3 harg3 arg4 harg4 arg5 harg5 arg6 harg6 x0 x1 x2 x3 y)
  unfold kernelRun0_A
  dsimp only
  sl_unfold_words
  simp only [View.readAt_eq_ld, harg2.read_unread, harg3.read_unread, harg4.read_unread, harg5.read_unread]
  intro p hp
  simp only [List.mem_cons, List.mem_nil_iff, or_false] at hp
  rcases hp with rfl | rfl | rfl | rfl
  · intro x
    refine (congrFun (store3_eq _ _ _ _ _ _ _ _ _ _ _ _ _ _ _ _) x).trans ?_
    exact chunk_apply x0 x1 x2 x3 3072 (by decide) (by decide) (by decide) (by decide) (by decide) (by decide) (by decide) (by decide) (by decide) (by decide) (by decide) (by decide) (by decide) (by decide) x
  · intro x
    refine (congrFun (store2_eq _ _ _ _ _ _ _ _ _ _ _ _ _ _ _ _) x).trans ?_
    exact chunk_apply x0 x1 x2 x3 2048 (by decide) (by decide) (by decide) (by decide) (by decide) (by decide) (by decide) (by decide) (by decide) (by decide) (by decide) (by decide) (by decide) (by decide) x
  · intro x
    refine (congrFun (store1_eq _ _ _ _ _ _ _ _ _ _ _ _ _ _ _ _) x).trans ?_
    exact chunk_apply x0 x1 x2 x3 1024 (by decide) (by decide) (by decide) (by decide) (by decide) (by decide) (by decide) (by decide) (by decide) (by decide) (by decide) (by decide) (by decide) (by decide) x
  · intro x
    refine (congrFun (store0_eq _ _ _ _ _ _ _ _ _ _ _ _ _ _ _ _) x).trans ?_
    exact chunk_apply x0 x1 x2 x3 0 (by decide) (by decide) (by decide) (by decide) (by decide) (by decide) (by decide) (by decide) (by decide) (by decide) (by decide) (by decide) (by decide) (by decide) x

variable (m : (ℓ : Loc nD τ sig) → Buf (Elt Ideal) ℓ)

/-- The four input blocks at point `t`, at their literal types. -/
abbrev qblk (c : Dev nD) (t : Fin cfg0.N) : Vec Ideal S1x4096x256 .f32 := iblk m c 0 t
abbrev kblk (c : Dev nD) (t : Fin cfg0.N) : Vec Ideal S1x4096x256 .f32 := iblk m c 1 t
abbrev vblk (c : Dev nD) (t : Fin cfg0.N) : Vec Ideal S1x4096x256 .f32 := iblk m c 2 t
abbrev gblk (c : Dev nD) (t : Fin cfg0.N) : Vec Ideal S1x25x256 .f32 := iblk m c 3 t

/-- The region's four input arrays, at their literal types. -/
abbrev qarr (c : Dev nD) : Vec Ideal S4x4096x1024 .f32 := V m c main_v0
abbrev karr (c : Dev nD) : Vec Ideal S4x4096x1024 .f32 := V m c main_v1
abbrev varr (c : Dev nD) : Vec Ideal S4x4096x1024 .f32 := V m c main_v2
abbrev garr (c : Dev nD) : Vec Ideal S4x25x1024 .f32 := V m c main_v3

/-- What the output's staging buffer holds after the body at point `t`. -/
theorem outsAt_eq (c : Dev nD) (t : Fin cfg0.N) :
    outsAt0 m c t = blockFn (qblk m c t) (kblk m c t) (vblk m c t) (gblk m c t) := by
  unfold outsAt0
  exact out_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)

/-- The printed index maps, decided over the grid: every input window moves with the output window, none moves along the
    rows, and the output's block indices stay in their ranges. -/
theorem idx_facts : ∀ t : Fin cfg0.N,
    (win0_0.index t (0 : Fin 3) = win0_4.index t (0 : Fin 3) ∧ win0_0.index t (1 : Fin 3) = 0 ∧ win0_0.index t (2 : Fin 3) = win0_4.index t (2 : Fin 3))
    ∧ (win0_1.index t (0 : Fin 3) = win0_4.index t (0 : Fin 3) ∧ win0_1.index t (1 : Fin 3) = 0 ∧ win0_1.index t (2 : Fin 3) = win0_4.index t (2 : Fin 3))
    ∧ (win0_2.index t (0 : Fin 3) = win0_4.index t (0 : Fin 3) ∧ win0_2.index t (1 : Fin 3) = 0 ∧ win0_2.index t (2 : Fin 3) = win0_4.index t (2 : Fin 3))
    ∧ (win0_3.index t (0 : Fin 3) = win0_4.index t (0 : Fin 3) ∧ win0_3.index t (1 : Fin 3) = 0 ∧ win0_3.index t (2 : Fin 3) = win0_4.index t (2 : Fin 3))
    ∧ win0_4.index t (1 : Fin 3) = 0 ∧ win0_4.index t (0 : Fin 3) ≤ 3 ∧ win0_4.index t (2 : Fin 3) ≤ 3 :=
  (by decide +kernel : ∀ t : Fin grid0.N, _)

/-- Every block of the output array is SOME point's. -/
theorem idx_onto : ∀ (q0 : Fin 4) (q2 : Fin 4), ∃ t : Fin cfg0.N, win0_4.index t = ![q0.val, 0, q2.val] :=
  (by decide +kernel : ∀ (q0 : Fin 4) (q2 : Fin 4), ∃ t : Fin grid0.N, win0_4.index t = ![q0.val, 0, q2.val])

/-- The block function of four blocks that are blocks `(B, ·, 256·H …)` of four arrays is the merged-layout value of the
    arrays for the head on positions `256·H + lane0 …`. -/
theorem headAt_eq_flatAt (X0 X1 X2 : Vec Ideal S1x4096x256 .f32) (X3 : Vec Ideal S1x25x256 .f32)
    (Q K W : Vec Ideal S4x4096x1024 .f32) (G : Vec Ideal S4x25x1024 .f32) (B H : Nat) (hB : B < 4) (hH : H < 4)
    (h0 : ∀ (l : Fin 4096) (n : Fin 256), X0 (ix3 (0 : Fin 1) l n) = Q (ix3 ⟨B, hB⟩ l ⟨256 * H + n.val, by have := n.isLt; omega⟩))
    (h1 : ∀ (l : Fin 4096) (n : Fin 256), X1 (ix3 (0 : Fin 1) l n) = K (ix3 ⟨B, hB⟩ l ⟨256 * H + n.val, by have := n.isLt; omega⟩))
    (h2 : ∀ (l : Fin 4096) (n : Fin 256), X2 (ix3 (0 : Fin 1) l n) = W (ix3 ⟨B, hB⟩ l ⟨256 * H + n.val, by have := n.isLt; omega⟩))
    (h3 : ∀ (g : Fin 25) (n : Fin 256), X3 (ix3 (0 : Fin 1) g n) = G (ix3 ⟨B, hB⟩ g ⟨256 * H + n.val, by have := n.isLt; omega⟩))
    (l : Fin 4096) (lane0 : Nat) (hl : lane0 + 64 ≤ 256) (e : Fin 64) :
    headAt X0 X1 X2 X3 l lane0 e = flatAt Q K W G ⟨B, hB⟩ l (256 * H + lane0) e := by
  have hlane : ∀ e' : Fin 64,
      (⟨256 * H + (laneAt lane0 e').val, by have := (laneAt lane0 e').isLt; omega⟩ : Fin 1024) = flatLane (256 * H + lane0) e' :=
    fun e' => Fin.ext (by
      show 256 * H + (laneAt lane0 e').val = (flatLane (256 * H + lane0) e').val
      rw [laneAt_val lane0 hl e', flatLane_val _ (by omega) e']; omega)
  unfold headAt flatAt
  simp only [h0, h1, h2, h3, hlane]

/-- Input block `w` at point `t`, at `(0, l, n)`, is the array at `(bi, l, 256·hj + n)`, `(bi, hj)` the output's block indices. -/
theorem qblk_apply (c : Dev nD) (t : Fin cfg0.N) (hB : win0_4.index t (0 : Fin 3) < 4) (hH : win0_4.index t (2 : Fin 3) < 4)
    (l : Fin 4096) (n : Fin 256) :
    qblk m c t (ix3 (0 : Fin 1) l n)
      = qarr m c (ix3 ⟨win0_4.index t (0 : Fin 3), hB⟩ l ⟨256 * win0_4.index t (2 : Fin 3) + n.val, by have := n.isLt; omega⟩) := by
  obtain ⟨⟨e0, e1, e2⟩, -, -, -, -, -, -⟩ := idx_facts t
  show V m c main_v0 (((cfg0.win 0).blk t).view.emb (ix3 (0 : Fin 1) l n)) = V m c main_v0 _
  refine congrArg (V m c main_v0) (funext fun a => Fin.ext ?_)
  match a with
  | ⟨0, _⟩ => show win0_0.index t (0 : Fin 3) * 1 + 1 * 0 = win0_4.index t (0 : Fin 3); omega
  | ⟨1, _⟩ => show win0_0.index t (1 : Fin 3) * 4096 + 1 * l.val = l.val; omega
  | ⟨2, _⟩ => show win0_0.index t (2 : Fin 3) * 256 + 1 * n.val = 256 * win0_4.index t (2 : Fin 3) + n.val; omega

theorem kblk_apply (c : Dev nD) (t : Fin cfg0.N) (hB : win0_4.index t (0 : Fin 3) < 4) (hH : win0_4.index t (2 : Fin 3) < 4)
    (l : Fin 4096) (n : Fin 256) :
    kblk m c t (ix3 (0 : Fin 1) l n)
      = karr m c (ix3 ⟨win0_4.index t (0 : Fin 3), hB⟩ l ⟨256 * win0_4.index t (2 : Fin 3) + n.val, by have := n.isLt; omega⟩) := by
  obtain ⟨-, ⟨e0, e1, e2⟩, -, -, -, -, -⟩ := idx_facts t
  show V m c main_v1 (((cfg0.win 1).blk t).view.emb (ix3 (0 : Fin 1) l n)) = V m c main_v1 _
  refine congrArg (V m c main_v1) (funext fun a => Fin.ext ?_)
  match a with
  | ⟨0, _⟩ => show win0_1.index t (0 : Fin 3) * 1 + 1 * 0 = win0_4.index t (0 : Fin 3); omega
  | ⟨1, _⟩ => show win0_1.index t (1 : Fin 3) * 4096 + 1 * l.val = l.val; omega
  | ⟨2, _⟩ => show win0_1.index t (2 : Fin 3) * 256 + 1 * n.val = 256 * win0_4.index t (2 : Fin 3) + n.val; omega

theorem vblk_apply (c : Dev nD) (t : Fin cfg0.N) (hB : win0_4.index t (0 : Fin 3) < 4) (hH : win0_4.index t (2 : Fin 3) < 4)
    (l : Fin 4096) (n : Fin 256) :
    vblk m c t (ix3 (0 : Fin 1) l n)
      = varr m c (ix3 ⟨win0_4.index t (0 : Fin 3), hB⟩ l ⟨256 * win0_4.index t (2 : Fin 3) + n.val, by have := n.isLt; omega⟩) := by
  obtain ⟨-, -, ⟨e0, e1, e2⟩, -, -, -, -⟩ := idx_facts t
  show V m c main_v2 (((cfg0.win 2).blk t).view.emb (ix3 (0 : Fin 1) l n)) = V m c main_v2 _
  refine congrArg (V m c main_v2) (funext fun a => Fin.ext ?_)
  match a with
  | ⟨0, _⟩ => show win0_2.index t (0 : Fin 3) * 1 + 1 * 0 = win0_4.index t (0 : Fin 3); omega
  | ⟨1, _⟩ => show win0_2.index t (1 : Fin 3) * 4096 + 1 * l.val = l.val; omega
  | ⟨2, _⟩ => show win0_2.index t (2 : Fin 3) * 256 + 1 * n.val = 256 * win0_4.index t (2 : Fin 3) + n.val; omega

theorem gblk_apply (c : Dev nD) (t : Fin cfg0.N) (hB : win0_4.index t (0 : Fin 3) < 4) (hH : win0_4.index t (2 : Fin 3) < 4)
    (g : Fin 25) (n : Fin 256) :
    gblk m c t (ix3 (0 : Fin 1) g n)
      = garr m c (ix3 ⟨win0_4.index t (0 : Fin 3), hB⟩ g ⟨256 * win0_4.index t (2 : Fin 3) + n.val, by have := n.isLt; omega⟩) := by
  obtain ⟨-, -, -, ⟨e0, e1, e2⟩, -, -, -⟩ := idx_facts t
  show V m c main_v3 (((cfg0.win 3).blk t).view.emb (ix3 (0 : Fin 1) g n)) = V m c main_v3 _
  refine congrArg (V m c main_v3) (funext fun a => Fin.ext ?_)
  match a with
  | ⟨0, _⟩ => show win0_3.index t (0 : Fin 3) * 1 + 1 * 0 = win0_4.index t (0 : Fin 3); omega
  | ⟨1, _⟩ => show win0_3.index t (1 : Fin 3) * 25 + 1 * g.val = g.val; omega
  | ⟨2, _⟩ => show win0_3.index t (2 : Fin 3) * 256 + 1 * n.val = 256 * win0_4.index t (2 : Fin 3) + n.val; omega

/-- WHAT POINT `t` WRITES BACK is block `t` of the merged-layout result of the arrays the region found. -/
theorem flushed_eq (c : Dev nD) (t : Fin cfg0.N) :
    (dats m 0 c).flushed 4 t
      = ((cfg0.win 4).blk t).view.read (Elt Ideal) (flatFn (qarr m c) (karr m c) (varr m c) (garr m c)) := by
  show (cfg0.win 4).cut (grid0.coords t) ((dats m 0 c).after 4 t) = _
  rw [after0_4, outsAt_eq]
  obtain ⟨-, -, -, -, f1, f0, f2⟩ := idx_facts t
  have hB : win0_4.index t (0 : Fin 3) < 4 := by omega
  have hH : win0_4.index t (2 : Fin 3) < 4 := by omega
  funext j
  show blockFn (qblk m c t) (kblk m c t) (vblk m c t) (gblk m c t) j
    = flatFn (qarr m c) (karr m c) (varr m c) (garr m c) (((cfg0.win 4).blk t).view.emb j)
  have hj0 : (j 0).val < 1 := (j 0).isLt
  have hj1 : (j 1).val < 4096 := (j 1).isLt
  have hj2 : (j 2).val < 256 := (j 2).isLt
  unfold blockFn flatFn
  refine (headAt_eq_flatAt _ _ _ _ (qarr m c) (karr m c) (varr m c) (garr m c) _ _ hB hH
    (qblk_apply m c t hB hH) (kblk_apply m c t hB hH) (vblk_apply m c t hB hH) (gblk_apply m c t hB hH) _ _ (by omega) _).trans ?_
  exact flatAt_congr _ _ _ _
    (by show win0_4.index t (0 : Fin 3) = win0_4.index t (0 : Fin 3) * 1 + 1 * (j 0).val; omega)
    (by show (j 1).val = win0_4.index t (1 : Fin 3) * 4096 + 1 * (j 1).val; omega)
    (by show 256 * win0_4.index t (2 : Fin 3) + 64 * ((j 2).val / 64)
          = 64 * ((win0_4.index t (2 : Fin 3) * 256 + 1 * (j 2).val) / 64); omega)
    (by show (j 2).val % 64 = (win0_4.index t (2 : Fin 3) * 256 + 1 * (j 2).val) % 64; omega)

/-- An index of the output array is in point `t`'s block iff each coordinate is in the block's range on its axis. -/
theorem mem_blk (t : Fin cfg0.N) (i : S4x4096x1024.Idx) :
    i ∈ ((cfg0.win 4).blk t).view.set ↔ ∀ a : Fin 3, win0_4.index t a * S1x4096x256.size a ≤ (i a).val
      ∧ (i a).val < win0_4.index t a * S1x4096x256.size a + S1x4096x256.size a := by
  show i ∈ ((View.whole main_v4).slice (win0_4.rect t)).set ↔ _
  rw [View.set_slice_whole, Rect.mem_set_unit]
  exact Iff.rfl

/-- Every index of the output array is in some point's block: `(b, l, n)` in the block of the point with block indices
    `(b, 0, n / 256)`. -/
theorem cover (i : S4x4096x1024.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 2).val / 256, by omega⟩
  have q0 : win0_4.index t (0 : Fin 3) = (i 0).val := congrFun ht 0
  have q1 : win0_4.index t (1 : Fin 3) = 0 := congrFun ht 1
  have q2 : win0_4.index t (2 : Fin 3) = (i 2).val / 256 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4096 ≤ (i 1).val ∧ (i 1).val < win0_4.index t (1 : Fin 3) * 4096 + 4096; omega
  | ⟨2, _⟩ => show win0_4.index t (2 : Fin 3) * 256 ≤ (i 2).val ∧ (i 2).val < win0_4.index t (2 : Fin 3) * 256 + 256; omega

/-- THE OUTPUT ARRAY after the run: the merged-layout result of the arrays the region found. -/
theorem final_out (c : Dev nD) :
    (dats m 0 c).arrAt 4 cfg0.N = flatFn (qarr m c) (karr m c) (varr m c) (garr m c) :=
  (dats m 0 c).arrAt_eq_of_cover 4 (flatFn (qarr m c) (karr m c) (varr m c) (garr m c)) (fun t _ => flushed_eq m c t) cover

end Cert.KernelIdeal.Out

end
-- ==== Proof.KernelValue.lean ====
/-
  The idealized kernel's result array: the guided-attention function of the four float arguments.

  Before the region the host merges the head and entry axes of each argument (a row-major reshape), and after it splits
  the merged axis of the region's output back. A reshape keeps row-major positions, `(b, l, h, e)` of `[4, 4096, 16, 64]`
  and `(b, l, 64·h + e)` of `[4, 4096, 1024]` are the same position, and the region's output is the merged-layout result of
  its input arrays; so the result array at `(b, l, h, e)` is the specification's `result` of the arguments there. The run
  is the generated frame run, its post read at the result array and at the arguments.
-/
import proofs.«415987_j38912403701947_3_alg».proof.Proof.Out
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen Cert.KernelIdeal.Flat Cert.KernelIdeal.Out Cert.GuidedAttention

variable (m : (ℓ : Loc nD τ sig) → Buf (Elt Ideal) ℓ) (ρ : Dev nD → PrngReg)

/-- The region finds, as its query array, the queries with the head and entry axes merged; -/
theorem qarr_eq (c : Dev nD) :
    qarr m c = shapeCast S4x4096x1024 (m ((c : Thread nD τ).loc main_arg0)) shapeCasts_S4x4096x16x64_S4x4096x1024 := by
  show StableHlo.after hostOps0 (fun b => m (c, b)) (Proc.devRef .tc main_v0) = _
  after_results
  rfl

/-- likewise the keys, -/
theorem karr_eq (c : Dev nD) :
    karr m c = shapeCast S4x4096x1024 (m ((c : Thread nD τ).loc main_arg1)) shapeCasts_S4x4096x16x64_S4x4096x1024 := by
  show StableHlo.after hostOps0 (fun b => m (c, b)) (Proc.devRef .tc main_v1) = _
  after_results
  rfl

/-- the values, -/
theorem varr_eq (c : Dev nD) :
    varr m c = shapeCast S4x4096x1024 (m ((c : Thread nD τ).loc main_arg2)) shapeCasts_S4x4096x16x64_S4x4096x1024 := by
  show StableHlo.after hostOps0 (fun b => m (c, b)) (Proc.devRef .tc main_v2) = _
  after_results
  rfl

/-- and the guidance tokens. -/
theorem garr_eq (c : Dev nD) :
    garr m c = shapeCast S4x25x1024 (m ((c : Thread nD τ).loc main_arg3)) shapeCasts_S4x25x16x64_S4x25x1024 := by
  show StableHlo.after hostOps0 (fun b => m (c, b)) (Proc.devRef .tc main_v3) = _
  after_results
  rfl

/-- After the region the host splits the merged axis of the region's output array. -/
theorem tail_eq (c : Dev nD) :
    Pipeline.afterTail₀ cfgs (dats m) 0 (V0 m) [hostOps1] c main_v5
      = shapeCast S4x4096x16x64 ((dats m 0 c).arrAt 4 cfg0.N) shapeCasts_S4x4096x1024_S4x4096x16x64 := by
  unfold Pipeline.afterTail₀
  show StableHlo.after hostOps1 _ (Proc.devRef .tc main_v5) = _
  after_results
  exact congrArg (fun x => shapeCast S4x4096x16x64 x shapeCasts_S4x4096x1024_S4x4096x16x64)
    (Pipeline.withArrays_arr spec0 launch0.win.arr_inj c _ _ 4)

/-- A `[4, 4096, 1024]` array split to `[4, 4096, 16, 64]` reads, at `(b, l, h, e)`, the operand at `(b, l, 64·h + e)`. -/
theorem split_apply (x : (⟨3, ![4, 4096, 1024]⟩ : Shape).Idx → EReal)
    (hc : (⟨3, ![4, 4096, 1024]⟩ : Shape).ShapeCasts ⟨4, ![4, 4096, 16, 64]⟩) (b : Fin 4) (l : Fin 4096) (h : Fin 16) (e : Fin 64) :
    shapeCast ⟨4, ![4, 4096, 16, 64]⟩ x hc (ix4 b l h e)
      = x (ix3 b l ⟨64 * h.val + e.val, by have := h.isLt; have := e.isLt; omega⟩) :=
  shapeCast_apply x hc _ _ (by
    rw [Shape.rowMajor_val_three, Shape.rowMajor_val_four]
    show (b.val * 4096 + l.val) * 1024 + (64 * h.val + e.val) = ((b.val * 4096 + l.val) * 16 + h.val) * 64 + e.val
    ring)

/-- The result array after the run is the guided-attention function of the four float arguments. -/
theorem value_eq (c : Dev nD) :
    Pipeline.afterTail₀ cfgs (dats m) 0 (V0 m) [hostOps1] c main_v5
      = result (m ((c : Thread nD τ).loc main_arg0)) (m ((c : Thread nD τ).loc main_arg1)) (m ((c : Thread nD τ).loc main_arg2))
          (m ((c : Thread nD τ).loc main_arg3)) := by
  rw [tail_eq, final_out, qarr_eq, karr_eq, varr_eq, garr_eq]
  funext i
  obtain ⟨b, l, h, e, rfl⟩ : ∃ (b : Fin 4) (l : Fin 4096) (h : Fin 16) (e : Fin 64), i = ix4 b l h e :=
    ⟨i 0, i 1, i 2, i 3, eq_ix4 i⟩
  refine (split_apply _ _ b l h e).trans ?_
  exact flatFn_reshape _ _ _ _ b l h e _ rfl

/-- The idealized kernel's run: every weakly fair execution terminates with the result array at the guided-attention
    function of the arguments and the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  Attention through guidance tokens: a fused kernel against its reference, equal over the extended reals.

  Both programs take queries, keys, values `[4, 4096, 16, 64]`, guidance tokens `[4, 25, 16, 64]` and a Boolean mask neither
  reads. For each batch entry and head, the guidance tokens scaled by 1/4 score the 4096 key rows, a softmax over the rows
  weights the value rows into 25 summary rows; then each query row scaled by 1/4 scores the 25 guidance tokens, and a
  softmax over the tokens weights the summary rows into the result row. `Cert.GuidedAttention.result` states this at an
  index, with a row's maximum as a fold of `max` from the word of −∞ and the sums as finite sums, in no particular order.
    * The reference computes it on arrays transposed to [batch, head, row, lane] (`RefValue.reference_eq`: its stages read
      at an index one after the other; the reference's further `maximum` with −∞ changes nothing).
    * The kernel computes it for four heads at a grid point, on the arguments with head and entry axes merged: stage one
      for the point's four heads, then stage two in four chunks of 1024 query rows, each chunk stored as one block of 256
      lanes. Each store is the restriction of one block function (`Out.out_eq`), the sixteen blocks tile the output
      (`Out.final_out`), and merging and splitting the axes keeps row-major positions (`KernelValue.value_eq`).
  The narrowing to the 16-bit format before every product is the identity at the ideal instance, a product into the zero
  accumulator is the plain sum, and no law used needs the inputs finite: the precondition is never opened. The
  idealization rewrote no operation, so the fourth conjunct is `True`. The three frames are the generated ones; the
  reference's is its generated run with the result dropped.
-/
import proofs.«415987_j38912403701947_3_alg».proof.Defs
import proofs.«415987_j38912403701947_3_alg».proof.Proof.Gen.Kernel
import proofs.«415987_j38912403701947_3_alg».proof.Proof.Gen.Kernel.Skeleton
import proofs.«415987_j38912403701947_3_alg».proof.Proof.Gen.Kernel.Launch
import proofs.«415987_j38912403701947_3_alg».proof.Proof.Gen.Kernel.Points
import proofs.«415987_j38912403701947_3_alg».proof.Proof.Gen.Kernel.Frame
import proofs.«415987_j38912403701947_3_alg».proof.Proof.Gen.KernelIdeal
import proofs.«415987_j38912403701947_3_alg».proof.Proof.Gen.KernelIdeal.Skeleton
import proofs.«415987_j38912403701947_3_alg».proof.Proof.Gen.KernelIdeal.Launch
import proofs.«415987_j38912403701947_3_alg».proof.Proof.Gen.KernelIdeal.Points
import proofs.«415987_j38912403701947_3_alg».proof.Proof.Gen.KernelIdeal.Frame
import proofs.«415987_j38912403701947_3_alg».proof.Proof.Gen.ReferenceIdeal
import proofs.«415987_j38912403701947_3_alg».proof.Proof.Gen.ReferenceIdeal.Run
import proofs.«415987_j38912403701947_3_alg».proof.Proof.Gen.ReferenceIdeal.Read
import proofs.«415987_j38912403701947_3_alg».proof.Proof.Gen.Pre_finite_inputs
import proofs.«415987_j38912403701947_3_alg».proof.Proof.ReferenceValue
import proofs.«415987_j38912403701947_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the guided-attention function of
    the kernel's arguments: the kernel by its run, the reference by its run, its last stage read as that function, and
    the agreement of the arguments. -/
theorem algebraic : Cert.algebraic_KernelIdeal_ReferenceIdeal := by
  intro m ρ m' ρ' _ hagree
  refine ⟨fun c => Cert.GuidedAttention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.reference_eq,
    (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
